-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x512 : Shape := ⟨3, ![1024, 128, 512]⟩
abbrev S512x512 : Shape := ⟨2, ![512, 512]⟩
abbrev S1x512 : Shape := ⟨2, ![1, 512]⟩
abbrev S_ : Shape := ⟨0, ![]⟩

class Facts : Prop where
  bcast_S_S1024x128x512 : S_.BroadcastsInDim S1024x128x512 (![] : Fin 0 → Fin S1024x128x512.rank)
  reducesTo_S1024x128x512_S_d0_1_2 : S1024x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S1024x128x512 .f32) (main_arg1 : FVec F S512x512 .f32) (main_arg2 : FVec F S1x512 .f32) : IVec S_ 1 :=
  let main_v0 : FVec F S1024x128x512 .f32 := Host.absf main_arg0
  let main_cst : FVec F S_ .f32 := constant S_ .f32 0x7F800000#32
  let main_v1 : FVec F S1024x128x512 .f32 := broadcastInDim S1024x128x512 ![] bcast_S_S1024x128x512 main_cst
  let main_v2 : IVec S1024x128x512 1 := cmpf .olt main_v0 main_v1
  let main_c : IVec S_ 1 := constantI S_ 1 1#1
  let main_v3 : IVec S_ 1 := (fun x v => Host.reduce IntOp.andi x v reducesTo_S1024x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  main_v13
-- ==== Kernel.lean ====
abbrev S1024x128x512 : Shape := ⟨3, ![1024, 128, 512]⟩
abbrev S512x512 : Shape := ⟨2, ![512, 512]⟩
abbrev S1x512 : Shape := ⟨2, ![1, 512]⟩
abbrev S1024x2x64x512 : Shape := ⟨4, ![1024, 2, 64, 512]⟩
abbrev S_ : Shape := ⟨0, ![]⟩
abbrev S1024x512 : Shape := ⟨2, ![1024, 512]⟩
abbrev S64x1x64x512 : Shape := ⟨4, ![64, 1, 64, 512]⟩
abbrev S64x512 : Shape := ⟨2, ![64, 512]⟩
abbrev S16x1x64x512 : Shape := ⟨4, ![16, 1, 64, 512]⟩
abbrev S16x64x512 : Shape := ⟨3, ![16, 64, 512]⟩
abbrev S16x512 : Shape := ⟨2, ![16, 512]⟩

abbrev nBuf : Space → Nat
  | .hbm => 12
  | .vmem => 8
  | .smem => 0
  | _ => 0

abbrev bufTy : (tb : Table) → Fin (tcTables nBuf tb) → BufTy
  | .hbm, ⟨0, _⟩ => ⟨S1024x128x512, .f32⟩
  | .hbm, ⟨1, _⟩ => ⟨S512x512, .f32⟩
  | .hbm, ⟨2, _⟩ => ⟨S1x512, .f32⟩
  | .hbm, ⟨3, _⟩ => ⟨S1024x2x64x512, .f32⟩
  | .hbm, ⟨4, _⟩ => ⟨S_, .i32⟩
  | .hbm, ⟨5, _⟩ => ⟨S_, .f32⟩
  | .hbm, ⟨6, _⟩ => ⟨S512x512, .f32⟩
  | .hbm, ⟨7, _⟩ => ⟨S512x512, .bf16⟩
  | .hbm, ⟨8, _⟩ => ⟨S_, .i32⟩
  | .hbm, ⟨9, _⟩ => ⟨S_, .f32⟩
  | .hbm, ⟨10, _⟩ => ⟨S1x512, .f32⟩
  | .hbm, ⟨11, _⟩ => ⟨S1024x512, .f32⟩
  | .local _ .vmem, ⟨0, _⟩ => ⟨S64x1x64x512, .f32⟩
  | .local _ .vmem, ⟨1, _⟩ => ⟨S64x1x64x512, .f32⟩
  | .local _ .vmem, ⟨2, _⟩ => ⟨S64x1x64x512, .f32⟩
  | .local _ .vmem, ⟨3, _⟩ => ⟨S64x1x64x512, .f32⟩
  | .local _ .vmem, ⟨4, _⟩ => ⟨S512x512, .bf16⟩
  | .local _ .vmem, ⟨5, _⟩ => ⟨S1x512, .f32⟩
  | .local _ .vmem, ⟨6, _⟩ => ⟨S64x512, .f32⟩
  | .local _ .vmem, ⟨7, _⟩ => ⟨S64x512, .f32⟩
  | _, _ => ⟨S1024x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x128x512_S1024x2x64x512 : S1024x128x512.ShapeCasts S1024x2x64x512
  pads_S512x512_S512x512_000_000 : S512x512.Pads (![0, 0] : Fin 2 → Nat) ![0, 0] ![0, 0] S512x512
  h_S_ : 0 < S_.numel
  bitsLt_bf16_f32 : FTy.bits .bf16 < FTy.bits .f32
  pads_S1x512_S1x512_000_000 : S1x512.Pads (![0, 0] : Fin 2 → Nat) ![0, 0] ![0, 0] S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S64x1x64x512_S16x1x64x512_0_0_0_0 : ∀ a, (![0, 0, 0, 0] : Fin 4 → Nat) a + S16x1x64x512.size a ≤ S64x1x64x512.size a
  h_S16x1x64x512 : 0 < S16x1x64x512.numel
  shapeCasts_S16x1x64x512_S16x64x512 : S16x1x64x512.ShapeCasts S16x64x512
  shapeCasts_S16x64x512_S1024x512 : S16x64x512.ShapeCasts S1024x512
  shapeCasts_S1024x512_S16x64x512 : S1024x512.ShapeCasts S16x64x512
  reduces_S16x64x512_S16x512 : S16x64x512.Reduces [1] S16x512
  broadcasts_S1x512_S16x512 : S1x512.Broadcasts S16x512
  inb_S64x512_S16x512_0_0 : ∀ a, (![0, 0] : Fin 2 → Nat) a + S16x512.size a ≤ S64x512.size a
  h_S16x512 : 0 < S16x512.numel
  inb_S64x1x64x512_S16x1x64x512_16_0_0_0 : ∀ a, (![16, 0, 0, 0] : Fin 4 → Nat) a + S16x1x64x512.size a ≤ S64x1x64x512.size a
  inb_S64x512_S16x512_16_0 : ∀ a, (![16, 0] : Fin 2 → Nat) a + S16x512.size a ≤ S64x512.size a
  inb_S64x1x64x512_S16x1x64x512_32_0_0_0 : ∀ a, (![32, 0, 0, 0] : Fin 4 → Nat) a + S16x1x64x512.size a ≤ S64x1x64x512.size a
  inb_S64x512_S16x512_32_0 : ∀ a, (![32, 0] : Fin 2 → Nat) a + S16x512.size a ≤ S64x512.size a
  inb_S64x1x64x512_S16x1x64x512_48_0_0_0 : ∀ a, (![48, 0, 0, 0] : Fin 4 → Nat) a + S16x1x64x512.size a ≤ S64x1x64x512.size a
  inb_S64x512_S16x512_48_0 : ∀ a, (![48, 0] : Fin 2 → Nat) a + S16x512.size a ≤ S64x512.size a
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1x64x512.size a ≤ S1024x2x64x512.size a
  hwx0_0 : ∀ i : grid0.Coords, EltTy.bits .f32 = 32 ∨ (Rect.block (s := S1024x2x64x512) S64x1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1x64x512.size a ≤ S1024x2x64x512.size a
  hwx0_1 : ∀ i : grid0.Coords, EltTy.bits .f32 = 32 ∨ (Rect.block (s := S1024x2x64x512) S64x1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S1024x512.size a
  hwx0_4 : ∀ i : grid0.Coords, EltTy.bits .f32 = 32 ∨ (Rect.block (s := S1024x512) S64x512.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S64x1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x128x512 : Shape := ⟨3, ![1024, 128, 512]⟩
abbrev S512x512 : Shape := ⟨2, ![512, 512]⟩
abbrev S1x512 : Shape := ⟨2, ![1, 512]⟩
abbrev S_ : Shape := ⟨0, ![]⟩
abbrev S1024x512 : Shape := ⟨2, ![1024, 512]⟩
abbrev S8x128x512 : Shape := ⟨3, ![8, 128, 512]⟩
abbrev S8x512 : Shape := ⟨2, ![8, 512]⟩
abbrev S1x64x512 : Shape := ⟨3, ![1, 64, 512]⟩
abbrev S64x512 : Shape := ⟨2, ![64, 512]⟩

abbrev nBuf : Space → Nat
  | .hbm => 10
  | .vmem => 6
  | .smem => 0
  | _ => 0

abbrev bufTy : (tb : Table) → Fin (tcTables nBuf tb) → BufTy
  | .hbm, ⟨0, _⟩ => ⟨S1024x128x512, .f32⟩
  | .hbm, ⟨1, _⟩ => ⟨S512x512, .f32⟩
  | .hbm, ⟨2, _⟩ => ⟨S1x512, .f32⟩
  | .hbm, ⟨3, _⟩ => ⟨S_, .i32⟩
  | .hbm, ⟨4, _⟩ => ⟨S_, .f32⟩
  | .hbm, ⟨5, _⟩ => ⟨S512x512, .f32⟩
  | .hbm, ⟨6, _⟩ => ⟨S_, .i32⟩
  | .hbm, ⟨7, _⟩ => ⟨S_, .f32⟩
  | .hbm, ⟨8, _⟩ => ⟨S1x512, .f32⟩
  | .hbm, ⟨9, _⟩ => ⟨S1024x512, .f32⟩
  | .local _ .vmem, ⟨0, _⟩ => ⟨S8x128x512, .f32⟩
  | .local _ .vmem, ⟨1, _⟩ => ⟨S8x128x512, .f32⟩
  | .local _ .vmem, ⟨2, _⟩ => ⟨S512x512, .f32⟩
  | .local _ .vmem, ⟨3, _⟩ => ⟨S1x512, .f32⟩
  | .local _ .vmem, ⟨4, _⟩ => ⟨S8x512, .f32⟩
  | .local _ .vmem, ⟨5, _⟩ => ⟨S8x512, .f32⟩
  | _, _ => ⟨S1024x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![128, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  pads_S512x512_S512x512_000_000 : S512x512.Pads (![0, 0] : Fin 2 → Nat) ![0, 0] ![0, 0] S512x512
  h_S_ : 0 < S_.numel
  pads_S1x512_S1x512_000_000 : S1x512.Pads (![0, 0] : Fin 2 → Nat) ![0, 0] ![0, 0] S1x512
  inb_S8x512_S8x512_0_0 : ∀ a, (![0, 0] : Fin 2 → Nat) a + S8x512.size a ≤ S8x512.size a
  h_S8x512 : 0 < S8x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S8x128x512_S1x64x512_0_0_0 : ∀ a, (![0, 0, 0] : Fin 3 → Nat) a + S1x64x512.size a ≤ S8x128x512.size a
  h_S1x64x512 : 0 < S1x64x512.numel
  shapeCasts_S1x64x512_S64x512 : S1x64x512.ShapeCasts S64x512
  shapeCasts_S64x512_S1x64x512 : S64x512.ShapeCasts S1x64x512
  reduces_S1x64x512_S1x512 : S1x64x512.Reduces [1] S1x512
  inb_S8x512_S1x512_0_0 : ∀ a, (![0, 0] : Fin 2 → Nat) a + S1x512.size a ≤ S8x512.size a
  h_S1x512 : 0 < S1x512.numel
  shapeCasts_S1x512_S1x512 : S1x512.ShapeCasts S1x512
  inb_S8x128x512_S1x64x512_0_64_0 : ∀ a, (![0, 64, 0] : Fin 3 → Nat) a + S1x64x512.size a ≤ S8x128x512.size a
  inb_S8x128x512_S1x64x512_1_0_0 : ∀ a, (![1, 0, 0] : Fin 3 → Nat) a + S1x64x512.size a ≤ S8x128x512.size a
  inb_S8x512_S1x512_1_0 : ∀ a, (![1, 0] : Fin 2 → Nat) a + S1x512.size a ≤ S8x512.size a
  inb_S8x128x512_S1x64x512_1_64_0 : ∀ a, (![1, 64, 0] : Fin 3 → Nat) a + S1x64x512.size a ≤ S8x128x512.size a
  inb_S8x128x512_S1x64x512_2_0_0 : ∀ a, (![2, 0, 0] : Fin 3 → Nat) a + S1x64x512.size a ≤ S8x128x512.size a
  inb_S8x512_S1x512_2_0 : ∀ a, (![2, 0] : Fin 2 → Nat) a + S1x512.size a ≤ S8x512.size a
  inb_S8x128x512_S1x64x512_2_64_0 : ∀ a, (![2, 64, 0] : Fin 3 → Nat) a + S1x64x512.size a ≤ S8x128x512.size a
  inb_S8x128x512_S1x64x512_3_0_0 : ∀ a, (![3, 0, 0] : Fin 3 → Nat) a + S1x64x512.size a ≤ S8x128x512.size a
  inb_S8x512_S1x512_3_0 : ∀ a, (![3, 0] : Fin 2 → Nat) a + S1x512.size a ≤ S8x512.size a
  inb_S8x128x512_S1x64x512_3_64_0 : ∀ a, (![3, 64, 0] : Fin 3 → Nat) a + S1x64x512.size a ≤ S8x128x512.size a
  inb_S8x128x512_S1x64x512_4_0_0 : ∀ a, (![4, 0, 0] : Fin 3 → Nat) a + S1x64x512.size a ≤ S8x128x512.size a
  inb_S8x512_S1x512_4_0 : ∀ a, (![4, 0] : Fin 2 → Nat) a + S1x512.size a ≤ S8x512.size a
  inb_S8x128x512_S1x64x512_4_64_0 : ∀ a, (![4, 64, 0] : Fin 3 → Nat) a + S1x64x512.size a ≤ S8x128x512.size a
  inb_S8x128x512_S1x64x512_5_0_0 : ∀ a, (![5, 0, 0] : Fin 3 → Nat) a + S1x64x512.size a ≤ S8x128x512.size a
  inb_S8x512_S1x512_5_0 : ∀ a, (![5, 0] : Fin 2 → Nat) a + S1x512.size a ≤ S8x512.size a
  inb_S8x128x512_S1x64x512_5_64_0 : ∀ a, (![5, 64, 0] : Fin 3 → Nat) a + S1x64x512.size a ≤ S8x128x512.size a
  inb_S8x128x512_S1x64x512_6_0_0 : ∀ a, (![6, 0, 0] : Fin 3 → Nat) a + S1x64x512.size a ≤ S8x128x512.size a
  inb_S8x512_S1x512_6_0 : ∀ a, (![6, 0] : Fin 2 → Nat) a + S1x512.size a ≤ S8x512.size a
  inb_S8x128x512_S1x64x512_6_64_0 : ∀ a, (![6, 64, 0] : Fin 3 → Nat) a + S1x64x512.size a ≤ S8x128x512.size a
  inb_S8x128x512_S1x64x512_7_0_0 : ∀ a, (![7, 0, 0] : Fin 3 → Nat) a + S1x64x512.size a ≤ S8x128x512.size a
  inb_S8x512_S1x512_7_0 : ∀ a, (![7, 0] : Fin 2 → Nat) a + S1x512.size a ≤ S8x512.size a
  inb_S8x128x512_S1x64x512_7_64_0 : ∀ a, (![7, 64, 0] : Fin 3 → Nat) a + S1x64x512.size a ≤ S8x128x512.size a
  shapeCasts_S8x512_S8x512 : S8x512.ShapeCasts S8x512
  inb_S1x512_S1x512_0_0 : ∀ a, (![0, 0] : Fin 2 → Nat) a + S1x512.size a ≤ S1x512.size a
  broadcasts_S1x512_S8x512 : S1x512.Broadcasts S8x512
  dot_S64x512_S512x512_S64x512_1_0_0_1_n_n_wf : DotDims.WF S64x512 S512x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S1024x128x512.size a
  hwx0_0 : ∀ i : grid0.Coords, EltTy.bits .f32 = 32 ∨ (Rect.block (s := S1024x128x512) S8x128x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S1024x512.size a
  hwx0_3 : ∀ i : grid0.Coords, EltTy.bits .f32 = 32 ∨ (Rect.block (s := S1024x512) S8x512.size (cc0_transform_3 i) (hinb0_3 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.KBRuns.lean ====
/-
  The program's TensorCore arrays as the kernel region finds them, and the blocks the region's input windows read.

  Before the region @main reshapes x : f32[1024,128,512] into xs : f32[1024,2,64,512] (the two halves of the length
  axis side by side), pads and narrows the weight to W' : bf16[512,512] and pads the bias to b' : f32[1,512]; the
  pads have width zero. `V` names every array after those host lines; the three arguments are not written by
  them (`V_main_arg0` … `V_main_arg2`).  The region has five windows over a grid of 16 points: windows 0 and 1 both
  read xs — window s reads rows [64 t, 64 t + 64) of half s at point t —, window 2 reads W' whole, window 3 reads b'
  whole, window 4 writes rows [64 t, 64 t + 64) of the result.  `iblk w t` is window w's block at point t read off
  `V`; an input window's staging buffer holds that block whenever the body runs (`before_0_of` … `before_3_of`),
  whether the block was fetched at that point or is still there from an earlier one.
-/
import proofs.«164441_g2000706673400859_pallasbulk_1295_19_alg».proof.Proof.Gen.Kernel.Launch
import proofs.«164441_g2000706673400859_pallasbulk_1295_19_alg».proof.Proof.Gen.Kernel.Skeleton
import proofs.«164441_g2000706673400859_pallasbulk_1295_19_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore arrays when the region is entered: the launch contents after the four stretches of host
    operations (the reshape of x; the weight's pad; its narrowing; the bias's pad). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main is those host lines and then the region: holding the unscoped arrays at the launch contents it reaches the
    region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host line writes x. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes the weight. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes the bias. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block whenever the body runs, for any proof data over `V` whose body
    leaves the block in place: fetched at that point, or the index has not moved since it was. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1 (the other half of the length axis). -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for input window 2 (the weight, fetched once). -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same for input window 3 (the bias, fetched once). -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs the body is called with -/

/-- One staging buffer of the output window, through which its contents are stated. -/
abbrev VO : View sig .tc .vmem S64x512 .f32 := (Memref.whole cc0_stg4_0 : Memref sig .tc .vmem S64x512 .f32).view
/-- Each window's current staging memref at point `t`, and that it is a whole buffer. -/
abbrev ms_0 (t : Fin cfg0.N) : Memref sig .tc .vmem S64x1x64x512 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S64x1x64x512 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x512 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S64x512 .f32 := win0_4.stage (cfg0.slots t 4)
abbrev hs_4 (t : Fin cfg0.N) : (ms_4 t).IsWhole := hstage0_4 ((cfg0.slots t 4).cast nbuf0_4)

end Cert.Kernel.Hand

end
-- ==== Proof.KBRun.lean ====
/-
  One run of the kernel body on any whole staging buffers.

  The body loads the weight block and the bias block, and for each of the four groups of 16 rows of its 64-row
  output block loads the matching 16 rows of both halves' input blocks, computes that group's result and stores it
  into rows [16 g, 16 g + 16) of the output buffer; what it loads from the output buffer before each store is not
  used.  So from the four input buffers at contents x0, x1 (the two halves' blocks), x2 (the weight), x3 (the
  bias) and the output buffer at anything, the body ends with the inputs unchanged and the output buffer
  overwritten by four pieces, one per row group, each a pure function of x0 … x3.  The list of pieces is found by
  running the body's memory operations in order; it is the first component of `kernelRun`.
-/
import proofs.«164441_g2000706673400859_pallasbulk_1295_19_alg».proof.Proof.KBRuns
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's four stores leave in the output's staging buffer (last first), with the proof that from
    whole staging buffers — the inputs' at their contents, the output's at anything — the body runs to any
    continuation that accepts the inputs' buffers as they were and the output's with those pieces written. -/
noncomputable def kernelRun (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S64x512 .f32) (harg5 : arg5.IsWhole)
    (x0 : Vec F S64x1x64x512 .f32) (x1 : Vec F S64x1x64x512 .f32) (x2 : Vec F S512x512 .bf16) (x3 : Vec F S1x512 .f32) :
    { L4 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__fused_kernel i arg1 harg1 arg2 harg2 arg3 harg3 arg4 harg4 arg5 harg5) K } := by
  refine ⟨?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.KBFrame.lean ====
/-
  The kernel region run at every grid point, and the frame of the program.

  The output window's staging buffer, after the body at point t, holds the body's four row-group pieces read back
  (`out4`, over the input blocks at t: `outAt`).  The proof data of the region say: the arrays enter at `V`; each
  input buffer is left holding its block, the output buffer `outAt`; nothing is carried between points.  The two
  windows that read xs each hold HALF of the share of xs for the length of the region — both only read it —, the
  other arrays are held whole (`arrays_split`: the array's points-to split along the share).  With the body
  obligation at every point (`body_obligation`: the inputs' buffers hold their blocks, so the body's run applies)
  the launch theorem for a region whose input windows share an array gives the run of @main (`run_main`): it
  terminates without fault, every window's array ends at what the write-backs make of it (`arrAt w 16`: for an
  input, its entry contents) and every other array as the region found it.  The program's three arguments are among
  the latter and no host line wrote them, so they end as launched (`frame`).
-/
import proofs.«164441_g2000706673400859_pallasbulk_1295_19_alg».proof.Proof.KBRun
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four stored pieces are the four blocks of 16 rows of the 64-row buffer: every index is in one of them. -/
theorem cover (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S64x512 .f32) (harg5 : arg5.IsWhole)
    (x0 : Vec F S64x1x64x512 .f32) (x1 : Vec F S64x1x64x512 .f32) (x2 : Vec F S512x512 .bf16) (x3 : Vec F S1x512 .f32) (y : S64x512.Idx) :
    ∃ pc ∈ (kernelRun c i arg1 harg1 arg2 harg2 arg3 harg3 arg4 harg4 arg5 harg5 x0 x1 x2 x3).1, y ∈ pc.1.set :=
  View.cover_of_tiledBy (kernelRun c i arg1 harg1 arg2 harg2 arg3 harg3 arg4 harg4 arg5 harg5 x0 x1 x2 x3).1 ![16, 512] (by sl_kernel_rfl) y

/-- What the body leaves in the output's staging buffer: its pieces read back (over contents that do not matter,
    the pieces covering the buffer). -/
def out4 (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S64x512 .f32) (harg5 : arg5.IsWhole)
    (x0 : Vec F S64x1x64x512 .f32) (x1 : Vec F S64x1x64x512 .f32) (x2 : Vec F S512x512 .bf16) (x3 : Vec F S1x512 .f32) : Vec F S64x512 .f32 :=
  VO.read (Elt F) (VO.writes (Elt F) VO.junk (kernelRun c i arg1 harg1 arg2 harg2 arg3 harg3 arg4 harg4 arg5 harg5 x0 x1 x2 x3).1)

/-- What the output's staging buffer holds after the body at point `t`: `out4` of the point's input blocks. -/
def outAt (c : Dev nD) (t : Fin cfg0.N) : Vec F S64x512 .f32 :=
  out4 c (grid0.coords t) (ms_0 t) (hs_0 t) (ms_1 t) (hs_1 t) (ms_2 t) (hs_2 t) (ms_3 t) (hs_3 t) (ms_4 t) (hs_4 t) (iblk m c 0 t) (iblk m c 1 t) (iblk m c 2 t) (iblk m c 3 t)

/-! ## The proof data -/

/-- The region's proof data on core `c`: arrays at `V`; each input buffer left at its block, the output buffer at
    `outAt`; no invariant beyond the core's scoped buffers that are no staging buffer; nothing owed; of xs, which
    windows 0 and 1 both read, each holds half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outAt m c t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outAt m c t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t))

/-- The body at any point: the inputs' buffers hold their blocks, so the run applies; what is carried between
    points passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  unfold outAt
  unfold out4
  iintro ⟨HΦ, Ho, ⟨%d0, H0⟩, ⟨%d1, H1⟩, ⟨%d2, H2⟩, ⟨%d3, H3⟩, ⟨%d4, H4⟩⟩
  iapply ((kernelRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem arrAt_zero (c : Dev nD) (w : Fin cfg0.W) : (dats m 0 c).arrAt w 0 = V m c (Pipeline.arrRef spec0 w) := rfl

/-- The distinct arrays behind the five windows are four: xs, the narrowed weight, the padded bias, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_v0) ↦{fullShare} V m c main_v0) ∗ (((c : Thread nD τ).loc main_v2) ↦{fullShare} V m c main_v2)
          ∗ (((c : Thread nD τ).loc main_v3) ↦{fullShare} V m c main_v3) ∗ (((c : Thread nD τ).loc main_v4) ↦{fullShare} V m c main_v4)) :=
  bigSep_eq_bigSepL_of_eq [main_v0, main_v2, main_v3, main_v4] (by decide) (by decide) _

/-- The four distinct arrays behind the five windows, each held whole at `V`, are the windows' arrays at their
    shares: xs's points-to splits into the two halves windows 0 and 1 hold. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  rw [arrBufs_eq]
  unfold Dat.arrays
  rw [bigSep_W0]
  simp only [View.set_whole, share_0, share_1, share_2, share_3, share_4, arrAt_zero]
  iintro ⟨H0, H2, H3, H4⟩
  ihave H0 := (pointsTo_share (PosShare.mem_left_op_right fullShare)).1 $$ H0
  icases H0 with ⟨H0l, H0r⟩
  isplitl [H0l]; · iexact H0l
  isplitl [H0r]; · iexact H0r
  isplitl [H2]; · iexact H2
  isplitl [H3]; · iexact H3
  iexact H4

/-! ## The run and the frame -/

theorem Φ_in (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [Φ_eq]; iintro ⟨-, H⟩; iexact H

theorem Φ_out (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [Φ_eq]; iintro H; isplitr
  · iempintro
  · iexact H

set_option backward.isDefEq.respectTransparency.types false in
/-- Every weakly fair execution of @main from a memory with zero counters terminates without fault; every window's
    array ends at what the write-backs make of it, every other unscoped array as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none)
    (hsplit := fun c => arrays_split m c)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => Φ_in m c)
    (hout := fun c => Φ_out m c)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Hand.run_main' depends on axioms: [propext, Classical.choice, Quot.sound] -/
#guard_msgs in #print axioms run_main

/-- THE FRAME at any instance: @main terminates without fault and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.Hand

end
-- ==== Proof.KIRuns.lean ====
/-
  The program's TensorCore arrays as the kernel region finds them, and the blocks the region's input windows read.

  Before the region @main reshapes x : f32[1024,128,512] into xs : f32[1024,2,64,512] (the two halves of the length
  axis side by side), pads and narrows the weight to W' : bf16[512,512] and pads the bias to b' : f32[1,512]; the
  pads have width zero. `V` names every array after those host lines; the three arguments are not written by
  them (`V_main_arg0` … `V_main_arg2`).  The region has five windows over a grid of 16 points: windows 0 and 1 both
  read xs — window s reads rows [64 t, 64 t + 64) of half s at point t —, window 2 reads W' whole, window 3 reads b'
  whole, window 4 writes rows [64 t, 64 t + 64) of the result.  `iblk w t` is window w's block at point t read off
  `V`; an input window's staging buffer holds that block whenever the body runs (`before_0_of` … `before_3_of`),
  whether the block was fetched at that point or is still there from an earlier one.
-/
import proofs.«164441_g2000706673400859_pallasbulk_1295_19_alg».proof.Proof.Gen.KernelIdeal.Launch
import proofs.«164441_g2000706673400859_pallasbulk_1295_19_alg».proof.Proof.Gen.KernelIdeal.Skeleton
import proofs.«164441_g2000706673400859_pallasbulk_1295_19_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore arrays when the region is entered: the launch contents after the four stretches of host
    operations (the reshape of x; the weight's pad; its narrowing; the bias's pad). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main is those host lines and then the region: holding the unscoped arrays at the launch contents it reaches the
    region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host line writes x. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes the weight. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes the bias. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block whenever the body runs, for any proof data over `V` whose body
    leaves the block in place: fetched at that point, or the index has not moved since it was. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1 (the other half of the length axis). -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for input window 2 (the weight, fetched once). -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same for input window 3 (the bias, fetched once). -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs the body is called with -/

/-- One staging buffer of the output window, through which its contents are stated. -/
abbrev VO : View sig .tc .vmem S64x512 .f32 := (Memref.whole cc0_stg4_0 : Memref sig .tc .vmem S64x512 .f32).view
/-- Each window's current staging memref at point `t`, and that it is a whole buffer. -/
abbrev ms_0 (t : Fin cfg0.N) : Memref sig .tc .vmem S64x1x64x512 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S64x1x64x512 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x512 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S64x512 .f32 := win0_4.stage (cfg0.slots t 4)
abbrev hs_4 (t : Fin cfg0.N) : (ms_4 t).IsWhole := hstage0_4 ((cfg0.slots t 4).cast nbuf0_4)

end Cert.KernelIdeal.Hand

end
-- ==== Proof.KIRun.lean ====
/-
  One run of the kernel body on any whole staging buffers.

  The body loads the weight block and the bias block, and for each of the four groups of 16 rows of its 64-row
  output block loads the matching 16 rows of both halves' input blocks, computes that group's result and stores it
  into rows [16 g, 16 g + 16) of the output buffer; what it loads from the output buffer before each store is not
  used.  So from the four input buffers at contents x0, x1 (the two halves' blocks), x2 (the weight), x3 (the
  bias) and the output buffer at anything, the body ends with the inputs unchanged and the output buffer
  overwritten by four pieces, one per row group, each a pure function of x0 … x3.  The list of pieces is found by
  running the body's memory operations in order; it is the first component of `kernelRun`.
-/
import proofs.«164441_g2000706673400859_pallasbulk_1295_19_alg».proof.Proof.KIRuns
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's four stores leave in the output's staging buffer (last first), with the proof that from
    whole staging buffers — the inputs' at their contents, the output's at anything — the body runs to any
    continuation that accepts the inputs' buffers as they were and the output's with those pieces written. -/
noncomputable def kernelRun (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S64x512 .f32) (harg5 : arg5.IsWhole)
    (x0 : Vec F S64x1x64x512 .f32) (x1 : Vec F S64x1x64x512 .f32) (x2 : Vec F S512x512 .bf16) (x3 : Vec F S1x512 .f32) :
    { L4 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__fused_kernel i arg1 harg1 arg2 harg2 arg3 harg3 arg4 harg4 arg5 harg5) K } := by
  refine ⟨?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.KIFrame.lean ====
/-
  The kernel region run at every grid point, and the frame of the program.

  The output window's staging buffer, after the body at point t, holds the body's four row-group pieces read back
  (`out4`, over the input blocks at t: `outAt`).  The proof data of the region say: the arrays enter at `V`; each
  input buffer is left holding its block, the output buffer `outAt`; nothing is carried between points.  The two
  windows that read xs each hold HALF of the share of xs for the length of the region — both only read it —, the
  other arrays are held whole (`arrays_split`: the array's points-to split along the share).  With the body
  obligation at every point (`body_obligation`: the inputs' buffers hold their blocks, so the body's run applies)
  the launch theorem for a region whose input windows share an array gives the run of @main (`run_main`): it
  terminates without fault, every window's array ends at what the write-backs make of it (`arrAt w 16`: for an
  input, its entry contents) and every other array as the region found it.  The program's three arguments are among
  the latter and no host line wrote them, so they end as launched (`frame`).
-/
import proofs.«164441_g2000706673400859_pallasbulk_1295_19_alg».proof.Proof.KIRun
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four stored pieces are the four blocks of 16 rows of the 64-row buffer: every index is in one of them. -/
theorem cover (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S64x512 .f32) (harg5 : arg5.IsWhole)
    (x0 : Vec F S64x1x64x512 .f32) (x1 : Vec F S64x1x64x512 .f32) (x2 : Vec F S512x512 .bf16) (x3 : Vec F S1x512 .f32) (y : S64x512.Idx) :
    ∃ pc ∈ (kernelRun c i arg1 harg1 arg2 harg2 arg3 harg3 arg4 harg4 arg5 harg5 x0 x1 x2 x3).1, y ∈ pc.1.set :=
  View.cover_of_tiledBy (kernelRun c i arg1 harg1 arg2 harg2 arg3 harg3 arg4 harg4 arg5 harg5 x0 x1 x2 x3).1 ![16, 512] (by sl_kernel_rfl) y

/-- What the body leaves in the output's staging buffer: its pieces read back (over contents that do not matter,
    the pieces covering the buffer). -/
def out4 (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S64x512 .f32) (harg5 : arg5.IsWhole)
    (x0 : Vec F S64x1x64x512 .f32) (x1 : Vec F S64x1x64x512 .f32) (x2 : Vec F S512x512 .bf16) (x3 : Vec F S1x512 .f32) : Vec F S64x512 .f32 :=
  VO.read (Elt F) (VO.writes (Elt F) VO.junk (kernelRun c i arg1 harg1 arg2 harg2 arg3 harg3 arg4 harg4 arg5 harg5 x0 x1 x2 x3).1)

/-- What the output's staging buffer holds after the body at point `t`: `out4` of the point's input blocks. -/
def outAt (c : Dev nD) (t : Fin cfg0.N) : Vec F S64x512 .f32 :=
  out4 c (grid0.coords t) (ms_0 t) (hs_0 t) (ms_1 t) (hs_1 t) (ms_2 t) (hs_2 t) (ms_3 t) (hs_3 t) (ms_4 t) (hs_4 t) (iblk m c 0 t) (iblk m c 1 t) (iblk m c 2 t) (iblk m c 3 t)

/-! ## The proof data -/

/-- The region's proof data on core `c`: arrays at `V`; each input buffer left at its block, the output buffer at
    `outAt`; no invariant beyond the core's scoped buffers that are no staging buffer; nothing owed; of xs, which
    windows 0 and 1 both read, each holds half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outAt m c t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outAt m c t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t))

/-- The body at any point: the inputs' buffers hold their blocks, so the run applies; what is carried between
    points passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  unfold outAt
  unfold out4
  iintro ⟨HΦ, Ho, ⟨%d0, H0⟩, ⟨%d1, H1⟩, ⟨%d2, H2⟩, ⟨%d3, H3⟩, ⟨%d4, H4⟩⟩
  iapply ((kernelRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem arrAt_zero (c : Dev nD) (w : Fin cfg0.W) : (dats m 0 c).arrAt w 0 = V m c (Pipeline.arrRef spec0 w) := rfl

/-- The distinct arrays behind the five windows are four: xs, the narrowed weight, the padded bias, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_v0) ↦{fullShare} V m c main_v0) ∗ (((c : Thread nD τ).loc main_v2) ↦{fullShare} V m c main_v2)
          ∗ (((c : Thread nD τ).loc main_v3) ↦{fullShare} V m c main_v3) ∗ (((c : Thread nD τ).loc main_v4) ↦{fullShare} V m c main_v4)) :=
  bigSep_eq_bigSepL_of_eq [main_v0, main_v2, main_v3, main_v4] (by decide) (by decide) _

/-- The four distinct arrays behind the five windows, each held whole at `V`, are the windows' arrays at their
    shares: xs's points-to splits into the two halves windows 0 and 1 hold. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  rw [arrBufs_eq]
  unfold Dat.arrays
  rw [bigSep_W0]
  simp only [View.set_whole, share_0, share_1, share_2, share_3, share_4, arrAt_zero]
  iintro ⟨H0, H2, H3, H4⟩
  ihave H0 := (pointsTo_share (PosShare.mem_left_op_right fullShare)).1 $$ H0
  icases H0 with ⟨H0l, H0r⟩
  isplitl [H0l]; · iexact H0l
  isplitl [H0r]; · iexact H0r
  isplitl [H2]; · iexact H2
  isplitl [H3]; · iexact H3
  iexact H4

/-! ## The run and the frame -/

theorem Φ_in (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [Φ_eq]; iintro ⟨-, H⟩; iexact H

theorem Φ_out (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [Φ_eq]; iintro H; isplitr
  · iempintro
  · iexact H

set_option backward.isDefEq.respectTransparency.types false in
/-- Every weakly fair execution of @main from a memory with zero counters terminates without fault; every window's
    array ends at what the write-backs make of it, every other unscoped array as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none)
    (hsplit := fun c => arrays_split m c)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => Φ_in m c)
    (hout := fun c => Φ_out m c)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-- THE FRAME at any instance: @main terminates without fault and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Hand

end
-- ==== Proof.PoolSpec.lean ====
/-
  What both programs compute, as one function of the three argument arrays over the extended reals:

      out[b, j] = max ( max ( M₀[b, j], M₁[b, j] ) + bias[0, j], 0 ),
      M_s[b, j] = the maximum over l' < 64 of  Σ_k x[b, 64 s + l', k] · w[k, j],   folded from −∞.

  The length axis (128) is cut into two halves of 64; each half's maximum of the linear scores is taken first, then
  the two are joined, the bias added and the result clamped below at zero.  Both −∞ and 0 are kept as the float
  patterns the programs spell them with.
-/
import Idealize.ShloMosaic.PureOps.Ideal
import Idealize.ShloMosaic.PureOps.Ideal.Laws
import Idealize.ShloMosaic.Lib.ValueIdx

noncomputable section

namespace Cert.Pool

open Idealize.ShloMosaic Idealize.ShloMosaic.ValueIdx

abbrev Sx : Shape := ⟨3, ![1024, 128, 512]⟩
abbrev Sw : Shape := ⟨2, ![512, 512]⟩
abbrev Sb : Shape := ⟨2, ![1, 512]⟩
abbrev So : Shape := ⟨2, ![1024, 512]⟩

/-- −∞, as the pattern of f32's negative infinity. -/
abbrev negInf : EReal := Ideal.ofBits .f32 0xFF800000#32
/-- 0, as the pattern of f32's zero. -/
abbrev zero : EReal := Ideal.ofBits .f32 0x00000000#32

/-- The linear score of token `l` of sequence `b` at output feature `j`: x[b, l, :] · w[:, j]. -/
def score (x : FVec Ideal Sx .f32) (w : FVec Ideal Sw .f32) (b : Fin 1024) (l : Fin 128) (j : Fin 512) : EReal :=
  ∑ k : Fin 512, x (ix3 b l k) * w (ix2 k j)

/-- The maximum of the scores over half `s` of the length axis (tokens 64 s … 64 s + 63), folded from −∞. -/
def halfMax (x : FVec Ideal Sx .f32) (w : FVec Ideal Sw .f32) (s : Fin 2) (b : Fin 1024) (j : Fin 512) : EReal :=
  (Finset.univ : Finset (Fin 64)).fold max negInf (fun l' => score x w b ⟨64 * s.val + l'.val, by omega⟩ j)

/-- The pooled, biased, clamped score of sequence `b` at feature `j`. -/
def pooledAt (x : FVec Ideal Sx .f32) (w : FVec Ideal Sw .f32) (bias : FVec Ideal Sb .f32) (b : Fin 1024) (j : Fin 512) : EReal :=
  max (max (halfMax x w 0 b j) (halfMax x w 1 b j) + bias (ix2 0 j)) zero

/-- The result array. -/
def pooled (x : FVec Ideal Sx .f32) (w : FVec Ideal Sw .f32) (bias : FVec Ideal Sb .f32) : FVec Ideal So .f32 :=
  fun i => pooledAt x w bias (i 0) (i 1)

theorem pooled_ix2 (x : FVec Ideal Sx .f32) (w : FVec Ideal Sw .f32) (bias : FVec Ideal Sb .f32) (b : Fin 1024) (j : Fin 512) :
    pooled x w bias (ix2 b j) = pooledAt x w bias b j := rfl

/-- Joining with −∞ changes nothing. -/
theorem max_negInf_left (y : EReal) : max negInf y = y := by
  have h : negInf = ⊥ := by simp [negInf, Ideal.ofBits, Ideal.ieee]
  rw [h]; exact max_bot_left y

end Cert.Pool

end
-- ==== Proof.KIVPay.lean ====
/-
  The kernel body's stored values read at an index, at the ideal values.
-/
import proofs.«164441_g2000706673400859_pallasbulk_1295_19_alg».proof.Proof.Gen.KernelIdeal.Skeleton
import proofs.«164441_g2000706673400859_pallasbulk_1295_19_alg».proof.Proof.PoolSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandPay

open Idealize.ShloMosaic Idealize.ShloMosaic.ValueIdx
open Cert.KernelIdeal Cert.KernelIdeal.Gen

/-- Row `r` of a loaded 16-row group of one half's block: the maximum over its 64 tokens of the score against the
    weight block, folded from −∞. -/
def groupMax (wv : FVec Ideal S512x512 .bf16) (a : Vec Ideal S16x1x64x512 .f32) (r : Fin 16) (j : Fin 512) : EReal :=
  (Finset.univ : Finset (Fin 64)).fold max Cert.Pool.negInf (fun l' => ∑ k : Fin 512, a (ix4 r 0 l' k) * wv (ix2 k j))

/-- A row group's result: the two halves' maxima joined, the bias added, clamped at zero. -/
def groupVal (wv : FVec Ideal S512x512 .bf16) (bv : FVec Ideal S1x512 .f32) (a0 a1 : Vec Ideal S16x1x64x512 .f32) (r : Fin 16) (j : Fin 512) : EReal :=
  max (max (groupMax wv a0 r j) (groupMax wv a1 r j) + bv (ix2 0 j)) Cert.Pool.zero

/-- The product of a [1024, 512] matrix with the weight block into the zero accumulator, read at (p, j): the sum over the
    contracted coordinate of the products of the entries. -/
private theorem mm_apply (x : FVec Ideal S1024x512 .bf16) (wv : FVec Ideal S512x512 .bf16) (p : Fin 1024) (j : Fin 512) :
    FloatOps.matmul dot_S1024x512_S512x512_S1024x512_1_0_0_1_n_n none x wv (constant (F := Ideal) S1024x512 .f32 0x00000000#32) (ix2 p j)
      = ∑ k : Fin 512, x (ix2 p k) * wv (ix2 k j) := by
  rw [Ideal.matmul_constant_zero_apply, ← Equiv.sum_comp (contrEquiv1 dot_S1024x512_S512x512_S1024x512_1_0_0_1_n_n 512 rfl rfl).symm]
  refine Finset.sum_congr rfl fun c _ => ?_
  have c2 := contrEquiv1_symm_val dot_S1024x512_S512x512_S1024x512_1_0_0_1_n_n 512 rfl rfl c
  have l2 : (dot_S1024x512_S512x512_S1024x512_1_0_0_1_n_n).lhsIdx (ix2 p j) ((contrEquiv1 _ 512 rfl rfl).symm c) = ix2 p c := by
    funext ax; apply Fin.ext
    match ax with
    | ⟨0, _⟩ => simp [DotDims.lhsIdx, dot_S1024x512_S512x512_S1024x512_1_0_0_1_n_n]; rfl
    | ⟨1, _⟩ => simp [DotDims.lhsIdx, dot_S1024x512_S512x512_S1024x512_1_0_0_1_n_n]; exact c2
  have r2 : (dot_S1024x512_S512x512_S1024x512_1_0_0_1_n_n).rhsIdx (ix2 p j) ((contrEquiv1 _ 512 rfl rfl).symm c) = ix2 c j := by
    funext ax; apply Fin.ext
    match ax with
    | ⟨0, _⟩ => simp [DotDims.rhsIdx, dot_S1024x512_S512x512_S1024x512_1_0_0_1_n_n]; exact c2
    | ⟨1, _⟩ => simp [DotDims.rhsIdx, dot_S1024x512_S512x512_S1024x512_1_0_0_1_n_n]; rfl
  rw [l2, r2]

/-- A loaded group's rows as one [1024, 512] matrix, read at (64 r + l', k): row-major, it is the group at (r, 0, l', k). -/
private theorem rows_apply (a : Vec Ideal S16x1x64x512 .f32) (h1 : S16x1x64x512.ShapeCasts S16x64x512)
    (hb : FTy.bits .bf16 < FTy.bits .f32) (h2 : S16x64x512.ShapeCasts S1024x512)
    (r : Fin 16) (l' : Fin 64) (k : Fin 512) (p : Fin 1024) (hp : p.val = 64 * r.val + l'.val) :
    shapeCast S1024x512 (truncf (F := Ideal) .bf16 (shapeCast S16x64x512 a h1) hb) h2 (ix2 p k) = a (ix4 r 0 l' k) := by
  refine (shapeCast_apply _ h2 (ix2 p k) (ix3 r l' k) (by
    rw [Shape.rowMajor_val_three, Shape.rowMajor_val_two]
    show (r.val * 64 + l'.val) * 512 + k.val = p.val * 512 + k.val
    omega)).trans ?_
  refine (truncf_apply _ hb (ix3 r l' k)).trans ?_
  exact shapeCast_apply a h1 (ix3 r l' k) (ix4 r 0 l' k) (by
    rw [Shape.rowMajor_val_four, Shape.rowMajor_val_three]
    show ((r.val * 1 + 0) * 64 + l'.val) * 512 + k.val = (r.val * 64 + l'.val) * 512 + k.val
    omega)

/-- One half's scores of a loaded group, regrouped as [16, 64, 512] and read at (r, l', j): the score of token l' of row r. -/
private theorem scores_apply (wv : FVec Ideal S512x512 .bf16) (a : Vec Ideal S16x1x64x512 .f32)
    (h1 : S16x1x64x512.ShapeCasts S16x64x512) (hb : FTy.bits .bf16 < FTy.bits .f32)
    (h2 : S16x64x512.ShapeCasts S1024x512) (h3 : S1024x512.ShapeCasts S16x64x512)
    (r : Fin 16) (l' : Fin 64) (j : Fin 512) :
    shapeCast S16x64x512
        (FloatOps.matmul dot_S1024x512_S512x512_S1024x512_1_0_0_1_n_n none
          (shapeCast S1024x512 (truncf (F := Ideal) .bf16 (shapeCast S16x64x512 a h1) hb) h2) wv
          (constant (F := Ideal) S1024x512 .f32 0x00000000#32)) h3 (ix3 r l' j)
      = ∑ k : Fin 512, a (ix4 r 0 l' k) * wv (ix2 k j) := by
  have hlt : 64 * r.val + l'.val < 1024 := by omega
  refine (shapeCast_apply _ h3 (ix3 r l' j) (ix2 (⟨64 * r.val + l'.val, hlt⟩ : Fin 1024) j) (by
    rw [Shape.rowMajor_val_two, Shape.rowMajor_val_three]
    show (64 * r.val + l'.val) * 512 + j.val = (r.val * 64 + l'.val) * 512 + j.val
    omega)).trans ?_
  refine (mm_apply _ wv _ j).trans ?_
  exact Finset.sum_congr rfl fun k _ => congrArg (· * wv (ix2 k j)) (rows_apply a h1 hb h2 r l' k _ rfl)

/-- One half's maximum over a loaded group's 64 tokens, read at (r, j): the fold of max from −∞ over the tokens of the scores. -/
private theorem groupMax_read (wv : FVec Ideal S512x512 .bf16) (a : Vec Ideal S16x1x64x512 .f32)
    (h1 : S16x1x64x512.ShapeCasts S16x64x512) (hb : FTy.bits .bf16 < FTy.bits .f32)
    (h2 : S16x64x512.ShapeCasts S1024x512) (h3 : S1024x512.ShapeCasts S16x64x512)
    (hred : S16x64x512.Reduces [1] S16x512) (hφ : FKind.Formats .f32)
    (hacc : (0xFF800000#32 : BitVec 32) = FKind.maximumf.neutral .f32 hφ) (r : Fin 16) (j : Fin 512) :
    multiReduction (F := Ideal) .maximumf [1] S16x512
        (shapeCast S16x64x512
          (FloatOps.matmul dot_S1024x512_S512x512_S1024x512_1_0_0_1_n_n none
            (shapeCast S1024x512 (truncf (F := Ideal) .bf16 (shapeCast S16x64x512 a h1) hb) h2) wv
            (constant (F := Ideal) S1024x512 .f32 0x00000000#32)) h3)
        0xFF800000#32 hred hφ hacc (ix2 r j)
      = groupMax wv a r j := by
  refine (Ideal.multiReduction_maximumf_single _ _ hred hφ hacc (ix2 r j)).trans ?_
  unfold groupMax
  refine congrArg (fun f => (Finset.univ : Finset (Fin 64)).fold max Cert.Pool.negInf f) (funext fun l' => ?_)
  have hl : hred.lift (ix2 r j) l' = ix3 r l' j := by
    funext c; apply Fin.ext
    match c with
    | ⟨0, _⟩ => rfl
    | ⟨1, _⟩ => rfl
    | ⟨2, _⟩ => rfl
  show shapeCast S16x64x512 _ h3 (hred.lift (ix2 r j) l') = _
  rw [hl]
  exact scores_apply wv a h1 hb h2 h3 r l' j

/-- The weight block through its identity cast is the block. -/
private theorem pay2_eq (v0 : Vec Ideal S512x512 .bf16) : k0_pay2 (F := Ideal) v0 = v0 := shapeCast_self v0 _

/-- The bias block through its identity cast is the block. -/
private theorem pay3_eq (v2 : Vec Ideal S1x512 .f32) : k0_pay3 (F := Ideal) v2 = v2 := shapeCast_self v2 _

/-- The join of the two halves' maxima, the bias row added, clamped at a scalar, read at (r, j). -/
private theorem join_apply (bv : FVec Ideal S1x512 .f32) (M0 M1 : FVec Ideal S16x512 .f32)
    (hbr : S1x512.Broadcasts S16x512) (z : Ideal .f32) (r : Fin 16) (j : Fin 512) (g0 g1 : EReal)
    (e0 : M0 (ix2 r j) = g0) (e1 : M1 (ix2 r j) = g1) :
    maximumf (addf (maximumf M0 M1) (broadcastTo S16x512 bv hbr)) (broadcast S16x512 z) (ix2 r j)
      = max (max g0 g1 + bv (ix2 0 j)) z := by
  refine (maximumf_apply _ _ (ix2 r j)).trans ?_
  refine congrArg₂ max ?_ (broadcast_apply z (ix2 r j))
  refine (addf_apply _ _ (ix2 r j)).trans ?_
  refine congrArg₂ (· + ·) ?_ (broadcastTo_1b_ab_apply bv hbr r j)
  refine (maximumf_apply _ _ (ix2 r j)).trans ?_
  exact congrArg₂ max e0 e1

/-- The first row group's stored value (its weight and bias operands are the loaded blocks, through identity casts). -/
theorem pay4_apply (v0 : Vec Ideal S512x512 .bf16) (v2 : Vec Ideal S1x512 .f32) (v4 v11 : Vec Ideal S16x1x64x512 .f32) (r : Fin 16) (j : Fin 512) :
    k0_pay4 (F := Ideal) v0 v2 v4 v11 (ix2 r j) = groupVal v0 v2 v4 v11 r j := by
  unfold k0_pay4 groupVal
  rw [pay2_eq v0, pay3_eq v2]
  exact join_apply v2 _ _ _ _ r j _ _ (groupMax_read v0 v4 _ _ _ _ _ _ _ r j) (groupMax_read v0 v11 _ _ _ _ _ _ _ r j)

/-- The second row group's stored value; its first half's maximum was computed before the cut of the body (`k0_pay5`). -/
theorem pay6_apply (v0 : Vec Ideal S512x512 .bf16) (v2 : Vec Ideal S1x512 .f32) (v24 v31 : Vec Ideal S16x1x64x512 .f32) (r : Fin 16) (j : Fin 512) :
    k0_pay6 (F := Ideal) (k0_pay2 v0) (k0_pay3 v2) (k0_pay5 v0 v24) v31 (ix2 r j) = groupVal v0 v2 v24 v31 r j := by
  unfold k0_pay6 groupVal
  rw [pay2_eq v0, pay3_eq v2]
  refine join_apply v2 _ _ _ _ r j _ _ ?_ (groupMax_read v0 v31 _ _ _ _ _ _ _ r j)
  unfold k0_pay5
  rw [pay2_eq v0]
  exact groupMax_read v0 v24 _ _ _ _ _ _ _ r j

/-- The third row group's stored value. -/
theorem pay7_apply (v0 : Vec Ideal S512x512 .bf16) (v2 : Vec Ideal S1x512 .f32) (v44 v51 : Vec Ideal S16x1x64x512 .f32) (r : Fin 16) (j : Fin 512) :
    k0_pay7 (F := Ideal) (k0_pay2 v0) (k0_pay3 v2) v44 v51 (ix2 r j) = groupVal v0 v2 v44 v51 r j := by
  unfold k0_pay7 groupVal
  rw [pay2_eq v0, pay3_eq v2]
  exact join_apply v2 _ _ _ _ r j _ _ (groupMax_read v0 v44 _ _ _ _ _ _ _ r j) (groupMax_read v0 v51 _ _ _ _ _ _ _ r j)

/-- The fourth row group's stored value. -/
theorem pay1_apply (v0 : Vec Ideal S512x512 .bf16) (v2 : Vec Ideal S1x512 .f32) (v64 v71 : Vec Ideal S16x1x64x512 .f32) (r : Fin 16) (j : Fin 512) :
    k0_pay1 (F := Ideal) (k0_pay2 v0) (k0_pay3 v2) v64 v71 (ix2 r j) = groupVal v0 v2 v64 v71 r j := by
  unfold k0_pay1 groupVal
  rw [pay2_eq v0, pay3_eq v2]
  exact join_apply v2 _ _ _ _ r j _ _ (groupMax_read v0 v64 _ _ _ _ _ _ _ r j) (groupMax_read v0 v71 _ _ _ _ _ _ _ r j)

end Cert.KernelIdeal.HandPay

end
-- ==== Proof.KIVHost.lean ====
/-
  The arrays the kernel region reads, as functions of the program's arguments.

  xs is x reshaped: xs[b, s, l', k] = x[b, 64 s + l', k] (both sit at row-major position ((128 b + 64 s + l') 512 + k)).
  The weight the region reads is the weight padded by nothing and narrowed to bf16, which over the extended reals is
  the weight; the bias it reads is the bias padded by nothing.
-/
import proofs.«164441_g2000706673400859_pallasbulk_1295_19_alg».proof.Proof.KIRuns
import proofs.«164441_g2000706673400859_pallasbulk_1295_19_alg».proof.Proof.PoolSpec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KernelIdeal.HandHost

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- xs is the reshape of x. -/
theorem V_main_v0_eq (c : Dev nD) :
    (V m c main_v0 : S1024x2x64x512.Idx → EReal)
      = shapeCast S1024x2x64x512 (m ((c.tc : Thread nD τ).loc main_arg0) : S1024x128x512.Idx → EReal) shapeCasts_S1024x128x512_S1024x2x64x512 := by
  dsimp only [V]
  simp only [hostOps0, hostOps0_1, hostOps0_2, hostOps0_3, List.flatten_cons, List.flatten_nil, List.append_nil, List.cons_append, List.nil_append]
  after_results
  rfl

/-- The region's weight is the zero-width pad of the weight, narrowed. -/
theorem V_main_v2_eq (c : Dev nD) :
    (V m c main_v2 : S512x512.Idx → EReal)
      = truncf (F := Ideal) .bf16 (pad S512x512 ![0, 0] ![0, 0] ![0, 0] (m ((c.tc : Thread nD τ).loc main_arg1) : S512x512.Idx → EReal)
          (sitofp (F := Ideal) .f32 (constantI S_ 32 0#32)) pads_S512x512_S512x512_000_000 h_S_) bitsLt_bf16_f32 := by
  dsimp only [V]
  simp only [hostOps0, hostOps0_1, hostOps0_2, hostOps0_3, List.flatten_cons, List.flatten_nil, List.append_nil, List.cons_append, List.nil_append]
  after_results
  rfl

/-- The region's bias is the zero-width pad of the bias. -/
theorem V_main_v3_eq (c : Dev nD) :
    (V m c main_v3 : S1x512.Idx → EReal)
      = pad S1x512 ![0, 0] ![0, 0] ![0, 0] (m ((c.tc : Thread nD τ).loc main_arg2) : S1x512.Idx → EReal)
          (sitofp (F := Ideal) .f32 (constantI S_ 32 0#32)) pads_S1x512_S1x512_000_000 h_S_ := by
  dsimp only [V]
  simp only [hostOps0, hostOps0_1, hostOps0_2, hostOps0_3, List.flatten_cons, List.flatten_nil, List.append_nil, List.cons_append, List.nil_append]
  after_results
  rfl

theorem V_main_v0_apply (c : Dev nD) (b : Fin 1024) (s : Fin 2) (l' : Fin 64) (k : Fin 512) :
    (V m c main_v0 : S1024x2x64x512.Idx → EReal) (ix4 b s l' k)
      = (m ((c.tc : Thread nD τ).loc main_arg0) : S1024x128x512.Idx → EReal) (ix3 b ⟨64 * s.val + l'.val, by omega⟩ k) := by
  rw [V_main_v0_eq]
  refine shapeCast_apply _ _ _ _ ?_
  show (S1024x128x512.rowMajor (ix3 b ⟨64 * s.val + l'.val, by omega⟩ k)).val = (S1024x2x64x512.rowMajor (ix4 b s l' k)).val
  rw [Shape.rowMajor_val_three, Shape.rowMajor_val_four]
  show (b.val * 128 + (64 * s.val + l'.val)) * 512 + k.val = ((b.val * 2 + s.val) * 64 + l'.val) * 512 + k.val
  omega

theorem V_main_v2_apply (c : Dev nD) (k j : Fin 512) :
    (V m c main_v2 : S512x512.Idx → EReal) (ix2 k j) = (m ((c.tc : Thread nD τ).loc main_arg1) : S512x512.Idx → EReal) (ix2 k j) := by
  rw [V_main_v2_eq]
  refine Eq.trans (truncf_apply (φ := .f32) (ψ := .bf16) _ bitsLt_bf16_f32 (ix2 k j)) ?_
  refine pad_apply_of_inside _ _ _ _ _ _ _ (ix2 k j) (ix2 k j) (fun a => ?_)
  match a with
  | ⟨0, _⟩ => simp
  | ⟨1, _⟩ => simp

theorem V_main_v3_apply (c : Dev nD) (j : Fin 512) :
    (V m c main_v3 : S1x512.Idx → EReal) (ix2 0 j) = (m ((c.tc : Thread nD τ).loc main_arg2) : S1x512.Idx → EReal) (ix2 0 j) := by
  rw [V_main_v3_eq]
  refine pad_apply_of_inside _ _ _ _ _ _ _ (ix2 0 j) (ix2 0 j) (fun a => ?_)
  match a with
  | ⟨0, _⟩ => simp
  | ⟨1, _⟩ => simp

end Cert.KernelIdeal.HandHost

end
-- ==== Proof.KIValue.lean ====
/-
  The kernel's result array at the ideal values.
-/
import proofs.«164441_g2000706673400859_pallasbulk_1295_19_alg».proof.Proof.KIFrame
import proofs.«164441_g2000706673400859_pallasbulk_1295_19_alg».proof.Proof.PoolSpec
import proofs.«164441_g2000706673400859_pallasbulk_1295_19_alg».proof.Proof.KIVPay
import proofs.«164441_g2000706673400859_pallasbulk_1295_19_alg».proof.Proof.KIVHost
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- Row `ρ` of one half's 64-row block: the maximum over its 64 tokens of the score against the weight block, folded from −∞. -/
def rowMax (wv : Vec Ideal S512x512 .bf16) (a : Vec Ideal S64x1x64x512 .f32) (ρ : Fin 64) (j : Fin 512) : EReal :=
  (Finset.univ : Finset (Fin 64)).fold max Cert.Pool.negInf (fun l' => ∑ k : Fin 512, a (ix4 ρ 0 l' k) * wv (ix2 k j))

/-- Row `ρ` of the 64-row output block: the two halves' maxima joined, the bias added, clamped at zero. -/
def rowVal (wv : Vec Ideal S512x512 .bf16) (bv : Vec Ideal S1x512 .f32) (a0 a1 : Vec Ideal S64x1x64x512 .f32) (ρ : Fin 64) (j : Fin 512) : EReal :=
  max (max (rowMax wv a0 ρ j) (rowMax wv a1 ρ j) + bv (ix2 0 j)) Cert.Pool.zero

/-- The zero offsets of a rank-two shape, as the constant zero function. -/
theorem hz2 : (![0, 0] : Fin 2 → Nat) = fun _ => 0 := funext fun a => by fin_cases a <;> rfl

/-- Sixteen rows of a 64-row block loaded from row `o`: row `r` of the load is row `o + r` of the block. -/
theorem ld_rows (x : Vec Ideal S64x1x64x512 .f32) (o : Nat)
    (inb : ∀ a, (![o, 0, 0, 0] : Fin 4 → Nat) a + (![16, 1, 64, 512] : Fin 4 → Nat) a ≤ S64x1x64x512.size a)
    (r : Fin 16) (l' : Fin 64) (k : Fin 512) (ρ : Fin 64) (hρ : ρ.val = o + r.val) :
    View.ld x (Rect.unit (s := S64x1x64x512) ![o, 0, 0, 0] ![16, 1, 64, 512] inb) (ix4 r 0 l' k) = x (ix4 ρ 0 l' k) := by
  show x _ = x _
  congr 1
  funext a
  apply Fin.ext
  match a with
  | ⟨0, _⟩ => show o + 1 * r.val = ρ.val; omega
  | ⟨1, _⟩ => show 0 + 1 * 0 = 0; rfl
  | ⟨2, _⟩ => show 0 + 1 * l'.val = l'.val; omega
  | ⟨3, _⟩ => show 0 + 1 * k.val = k.val; omega

/-- A row group's result over sixteen rows loaded from row `o` of both halves' blocks is the block's row `o + r`. -/
theorem group_eq_row (wv : Vec Ideal S512x512 .bf16) (bv : Vec Ideal S1x512 .f32) (a0 a1 : Vec Ideal S64x1x64x512 .f32) (o : Nat)
    (inb : ∀ a, (![o, 0, 0, 0] : Fin 4 → Nat) a + (![16, 1, 64, 512] : Fin 4 → Nat) a ≤ S64x1x64x512.size a)
    (r : Fin 16) (j : Fin 512) (ρ : Fin 64) (j' : Fin 512) (hρ : ρ.val = o + r.val) (hj : j'.val = j.val) :
    HandPay.groupVal wv bv (View.ld a0 (Rect.unit (s := S64x1x64x512) ![o, 0, 0, 0] ![16, 1, 64, 512] inb))
        (View.ld a1 (Rect.unit (s := S64x1x64x512) ![o, 0, 0, 0] ![16, 1, 64, 512] inb)) r j
      = rowVal wv bv a0 a1 ρ j' := by
  obtain rfl : j = j' := (Fin.ext hj).symm
  unfold HandPay.groupVal rowVal HandPay.groupMax rowMax
  have h : ∀ a : Vec Ideal S64x1x64x512 .f32, (fun l' : Fin 64 => ∑ k : Fin 512, View.ld a (Rect.unit (s := S64x1x64x512) ![o, 0, 0, 0] ![16, 1, 64, 512] inb) (ix4 r 0 l' k) * wv (ix2 k j))
      = fun l' : Fin 64 => ∑ k : Fin 512, a (ix4 ρ 0 l' k) * wv (ix2 k j) := fun a =>
    funext fun l' => Finset.sum_congr rfl fun k _ => by rw [ld_rows a o inb r l' k ρ hρ]
  rw [h a0, h a1]

/-- A property of every index of a rank-two shape holds if it holds at every pair of coordinates. -/
theorem forall_idx2 {n0 n1 : Nat} {P : (⟨2, ![n0, n1]⟩ : Shape).Idx → Prop} (h : ∀ (r : Fin n0) (j : Fin n1), P (ix2 r j)) : ∀ x, P x :=
  fun x => by rw [eq_ix2 x]; exact h _ _

/-- What one run of the body leaves in the output buffer at row `ρ`, column `j`: the row's value over the two halves' blocks, the weight block and the bias block. -/
theorem out4_apply (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S64x512 .f32) (harg5 : arg5.IsWhole)
    (x0 : Vec Ideal S64x1x64x512 .f32) (x1 : Vec Ideal S64x1x64x512 .f32) (x2 : Vec Ideal S512x512 .bf16) (x3 : Vec Ideal S1x512 .f32) (ρ : Fin 64) (j : Fin 512) :
    out4 (F := Ideal) c i arg1 harg1 arg2 harg2 arg3 harg3 arg4 harg4 arg5 harg5 x0 x1 x2 x3 (ix2 ρ j) = rowVal x2 x3 x0 x1 ρ j := by
  unfold out4
  rw [View.read_writes_eq_canon _ _ _ (cover c i arg1 harg1 arg2 harg2 arg3 harg3 arg4 harg4 arg5 harg5 x0 x1 x2 x3)]
  have hc := cover c i arg1 harg1 arg2 harg2 arg3 harg3 arg4 harg4 arg5 harg5 x0 x1 x2 x3 (ix2 ρ j)
  revert hc
  unfold kernelRun
  dsimp only
  sl_unfold_words
  simp only [View.readAt_eq_ld, harg1.read_unread, harg2.read_unread, harg3.read_unread, harg4.read_unread,
    View.ld_unit_zero (S := S512x512) hz2, View.ld_unit_zero (S := S1x512) hz2]
  intro hc
  refine (View.canon_apply_of_pieces (fun y => rowVal x2 x3 x0 x1 (y 0) (y 1)) _ ?_ (ix2 ρ j) hc).trans rfl
  refine List.forall_mem_cons.mpr ⟨?_, List.forall_mem_cons.mpr ⟨?_, List.forall_mem_cons.mpr ⟨?_, List.forall_mem_cons.mpr ⟨?_, fun _ h => absurd h List.not_mem_nil⟩⟩⟩⟩
  · refine forall_idx2 fun r j' => ?_
    refine (HandPay.pay1_apply x2 x3 _ _ r j').trans ?_
    exact group_eq_row x2 x3 x0 x1 48 _ r j' _ _ (by show 48 + 1 * r.val = 48 + r.val; omega) (by show 0 + 1 * j'.val = j'.val; omega)
  · refine forall_idx2 fun r j' => ?_
    refine (HandPay.pay7_apply x2 x3 _ _ r j').trans ?_
    exact group_eq_row x2 x3 x0 x1 32 _ r j' _ _ (by show 32 + 1 * r.val = 32 + r.val; omega) (by show 0 + 1 * j'.val = j'.val; omega)
  · refine forall_idx2 fun r j' => ?_
    refine (HandPay.pay6_apply x2 x3 _ _ r j').trans ?_
    exact group_eq_row x2 x3 x0 x1 16 _ r j' _ _ (by show 16 + 1 * r.val = 16 + r.val; omega) (by show 0 + 1 * j'.val = j'.val; omega)
  · refine forall_idx2 fun r j' => ?_
    refine (HandPay.pay4_apply x2 x3 _ _ r j').trans ?_
    exact group_eq_row x2 x3 x0 x1 0 _ r j' _ _ (by show 0 + 1 * r.val = 0 + r.val; omega) (by show 0 + 1 * j'.val = j'.val; omega)

/-! ## The blocks at a point -/

/-- The program's first argument as launched: x. -/
abbrev argX (c : Dev nD) : FVec Ideal Cert.Pool.Sx .f32 := m ((c.tc : Thread nD τ).loc main_arg0)
/-- The program's second argument as launched: the weight. -/
abbrev argW (c : Dev nD) : FVec Ideal Cert.Pool.Sw .f32 := m ((c.tc : Thread nD τ).loc main_arg1)
/-- The program's third argument as launched: the bias. -/
abbrev argB (c : Dev nD) : FVec Ideal Cert.Pool.Sb .f32 := m ((c.tc : Thread nD τ).loc main_arg2)

/-- The first half's block of 64 rows at point `t`. -/
abbrev xblk0 (c : Dev nD) (t : Fin cfg0.N) : Vec Ideal S64x1x64x512 .f32 := iblk m c 0 t
/-- The second half's block of 64 rows at point `t`. -/
abbrev xblk1 (c : Dev nD) (t : Fin cfg0.N) : Vec Ideal S64x1x64x512 .f32 := iblk m c 1 t
/-- The weight's block at point `t`. -/
abbrev wblk (c : Dev nD) (t : Fin cfg0.N) : Vec Ideal S512x512 .bf16 := iblk m c 2 t
/-- The bias's block at point `t`. -/
abbrev bblk (c : Dev nD) (t : Fin cfg0.N) : Vec Ideal S1x512 .f32 := iblk m c 3 t

/-- The index maps over the grid: at point `t` the halves' windows and the result's window are at block `t` of the row axis (half `s`'s at `s` of the half axis), the weight's and the bias's at block zero. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 1 ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The first half's block at point `t`: its row `ρ` is row `64 t + ρ` of half 0 of the reshaped argument. -/
theorem xblk0_apply (c : Dev nD) (t : Fin cfg0.N) (ρ l' : Fin 64) (k : Fin 512) (b : Fin 1024) (hb : b.val = 64 * t.val + ρ.val) :
    xblk0 m c t (ix4 ρ 0 l' k) = (V m c main_v0 : S1024x2x64x512.Idx → EReal) (ix4 b 0 l' k) := by
  obtain ⟨e0, e1, e2, e3, -⟩ := idx_facts t
  unfold xblk0 iblk
  rw [View.read_apply]
  show V m c main_v0 _ = V m c main_v0 _
  congr 1
  funext a
  apply Fin.ext
  match a with
  | ⟨0, _⟩ => show win0_0.index t (0 : Fin 4) * 64 + 1 * ρ.val = b.val; rw [e0, hb]; omega
  | ⟨1, _⟩ => show win0_0.index t (1 : Fin 4) * 1 + 1 * 0 = 0; rw [e1]
  | ⟨2, _⟩ => show win0_0.index t (2 : Fin 4) * 64 + 1 * l'.val = l'.val; rw [e2]; omega
  | ⟨3, _⟩ => show win0_0.index t (3 : Fin 4) * 512 + 1 * k.val = k.val; rw [e3]; omega

/-- The second half's block at point `t`: its row `ρ` is row `64 t + ρ` of half 1 of the reshaped argument. -/
theorem xblk1_apply (c : Dev nD) (t : Fin cfg0.N) (ρ l' : Fin 64) (k : Fin 512) (b : Fin 1024) (hb : b.val = 64 * t.val + ρ.val) :
    xblk1 m c t (ix4 ρ 0 l' k) = (V m c main_v0 : S1024x2x64x512.Idx → EReal) (ix4 b 1 l' k) := by
  obtain ⟨-, -, -, -, e0, e1, e2, e3, -⟩ := idx_facts t
  unfold xblk1 iblk
  rw [View.read_apply]
  show V m c main_v0 _ = V m c main_v0 _
  congr 1
  funext a
  apply Fin.ext
  match a with
  | ⟨0, _⟩ => show win0_1.index t (0 : Fin 4) * 64 + 1 * ρ.val = b.val; rw [e0, hb]; omega
  | ⟨1, _⟩ => show win0_1.index t (1 : Fin 4) * 1 + 1 * 0 = 1; rw [e1]
  | ⟨2, _⟩ => show win0_1.index t (2 : Fin 4) * 64 + 1 * l'.val = l'.val; rw [e2]; omega
  | ⟨3, _⟩ => show win0_1.index t (3 : Fin 4) * 512 + 1 * k.val = k.val; rw [e3]; omega

/-- The weight's block at any point is the whole narrowed weight. -/
theorem wblk_apply (c : Dev nD) (t : Fin cfg0.N) (k j : Fin 512) :
    wblk m c t (ix2 k j) = (V m c main_v2 : S512x512.Idx → EReal) (ix2 k j) := by
  obtain ⟨-, -, -, -, -, -, -, -, e0, e1, -⟩ := idx_facts t
  unfold wblk iblk
  rw [View.read_apply]
  show V m c main_v2 _ = V m c main_v2 _
  congr 1
  funext a
  apply Fin.ext
  match a with
  | ⟨0, _⟩ => show win0_2.index t (0 : Fin 2) * 512 + 1 * k.val = k.val; rw [e0]; omega
  | ⟨1, _⟩ => show win0_2.index t (1 : Fin 2) * 512 + 1 * j.val = j.val; rw [e1]; omega

/-- The bias's block at any point is the whole padded bias. -/
theorem bblk_apply (c : Dev nD) (t : Fin cfg0.N) (j : Fin 512) :
    bblk m c t (ix2 0 j) = (V m c main_v3 : S1x512.Idx → EReal) (ix2 0 j) := by
  obtain ⟨-, -, -, -, -, -, -, -, -, -, e0, e1, -⟩ := idx_facts t
  unfold bblk iblk
  rw [View.read_apply]
  show V m c main_v3 _ = V m c main_v3 _
  congr 1
  funext a
  apply Fin.ext
  match a with
  | ⟨0, _⟩ => show win0_3.index t (0 : Fin 2) * 1 + 1 * 0 = 0; rw [e0]
  | ⟨1, _⟩ => show win0_3.index t (1 : Fin 2) * 512 + 1 * j.val = j.val; rw [e1]; omega

/-- A row's value over the blocks at point `t` is the pooled score of row `64 t + ρ` of the arguments. -/
theorem rowVal_blocks (c : Dev nD) (t : Fin cfg0.N) (ρ : Fin 64) (j : Fin 512) (b : Fin 1024) (j' : Fin 512)
    (hb : b.val = 64 * t.val + ρ.val) (hj : j'.val = j.val) :
    rowVal (wblk m c t) (bblk m c t) (xblk0 m c t) (xblk1 m c t) ρ j = Cert.Pool.pooledAt (argX m c) (argW m c) (argB m c) b j' := by
  obtain rfl : j = j' := (Fin.ext hj).symm
  have h0 : (fun l' : Fin 64 => ∑ k : Fin 512, xblk0 m c t (ix4 ρ 0 l' k) * wblk m c t (ix2 k j))
      = fun l' : Fin 64 => Cert.Pool.score (argX m c) (argW m c) b ⟨64 * (0 : Fin 2).val + l'.val, by omega⟩ j :=
    funext fun l' => Finset.sum_congr rfl fun k _ => by
      rw [xblk0_apply m c t ρ l' k b hb, wblk_apply m c t k j, HandHost.V_main_v0_apply m c b 0 l' k, HandHost.V_main_v2_apply m c k j]
  have h1 : (fun l' : Fin 64 => ∑ k : Fin 512, xblk1 m c t (ix4 ρ 0 l' k) * wblk m c t (ix2 k j))
      = fun l' : Fin 64 => Cert.Pool.score (argX m c) (argW m c) b ⟨64 * (1 : Fin 2).val + l'.val, by omega⟩ j :=
    funext fun l' => Finset.sum_congr rfl fun k _ => by
      rw [xblk1_apply m c t ρ l' k b hb, wblk_apply m c t k j, HandHost.V_main_v0_apply m c b 1 l' k, HandHost.V_main_v2_apply m c k j]
  unfold rowVal rowMax Cert.Pool.pooledAt Cert.Pool.halfMax
  rw [h0, h1, bblk_apply m c t j, HandHost.V_main_v3_apply m c j]

/-- What the output buffer holds after the body at point `t`, at an index: the pooled score where that index sits in the result array. -/
theorem outAt_apply (c : Dev nD) (t : Fin cfg0.N) (y : S64x512.Idx) (i : S1024x512.Idx)
    (h0 : (i 0).val = 64 * t.val + (y 0).val) (h1 : (i 1).val = (y 1).val) :
    outAt (F := Ideal) m c t y = Cert.Pool.pooled (argX m c) (argW m c) (argB m c) i := by
  show _ = Cert.Pool.pooledAt (argX m c) (argW m c) (argB m c) (i 0) (i 1)
  rw [eq_ix2 y]
  unfold outAt
  refine (out4_apply c (grid0.coords t) (ms_0 t) (hs_0 t) (ms_1 t) (hs_1 t) (ms_2 t) (hs_2 t) (ms_3 t) (hs_3 t) (ms_4 t) (hs_4 t) (iblk m c 0 t) (iblk m c 1 t) (iblk m c 2 t) (iblk m c 3 t) (y 0) (y 1)).trans ?_
  exact rowVal_blocks m c t (y 0) (y 1) (i 0) (i 1) h0 h1

/-! ## From the blocks to the array -/

/-- What point `t` writes back is block `t` of the pooled score of the arguments. -/
theorem flushed_eq (c : Dev nD) (t : Fin cfg0.N) :
    (dats (F := Ideal) m 0 c).flushed 4 t
      = ((cfg0.win 4).blk t).view.read (Elt Ideal) (Cert.Pool.pooled (argX m c) (argW m c) (argB m c)) := by
  show (cfg0.win 4).cut (grid0.coords t) ((dats m 0 c).after 4 t) = _
  rw [after_4]
  obtain ⟨-, -, -, -, -, -, -, -, -, -, -, -, e0, e1⟩ := idx_facts t
  funext y
  rw [View.read_apply]
  refine outAt_apply m c t y (((cfg0.win 4).blk t).view.emb y) ?_ ?_
  · show win0_4.index t (0 : Fin 2) * 64 + 1 * (y 0).val = 64 * t.val + (y 0).val; rw [e0]; omega
  · show win0_4.index t (1 : Fin 2) * 512 + 1 * (y 1).val = (y 1).val; rw [e1]; omega

/-- An index of the result array is in point `t`'s block iff each coordinate is in the block's range on its axis. -/
theorem mem_blk (t : Fin cfg0.N) (i : S1024x512.Idx) :
    i ∈ ((cfg0.win 4).blk t).view.set ↔ ∀ a : Fin 2, win0_4.index t a * S64x512.size a ≤ (i a).val ∧ (i a).val < win0_4.index t a * S64x512.size a + S64x512.size a := by
  show i ∈ ((View.whole main_v4).slice (win0_4.rect t)).set ↔ _
  rw [View.set_slice_whole, Rect.mem_set_unit]
  exact Iff.rfl

/-- Row `b` of the result array is in the block of point `b / 64`: the sixteen blocks cover the array. -/
theorem covered (i : S1024x512.Idx) :
    ∃ t : Fin cfg0.N, (cfg0.win 4).flush t = true ∧ i ∈ ((cfg0.win 4).blk t).view.set := by
  have hi0 : (i 0).val < 1024 := (i 0).isLt
  have hi1 : (i 1).val < 512 := (i 1).isLt
  have hN : cfg0.N = 16 := N_0
  have ht : (i 0).val / 64 < cfg0.N := by rw [hN]; omega
  obtain ⟨-, -, -, -, -, -, -, -, -, -, -, -, e0, e1⟩ := idx_facts ⟨(i 0).val / 64, ht⟩
  refine ⟨⟨(i 0).val / 64, ht⟩, flush0_4 _, ?_⟩
  rw [mem_blk]
  intro a
  match a with
  | ⟨0, _⟩ =>
    show win0_4.index ⟨(i 0).val / 64, ht⟩ (0 : Fin 2) * 64 ≤ (i 0).val ∧ (i 0).val < win0_4.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_4.index ⟨(i 0).val / 64, ht⟩ (1 : Fin 2) * 512 ≤ (i 1).val ∧ (i 1).val < win0_4.index ⟨(i 0).val / 64, ht⟩ (1 : Fin 2) * 512 + 512
    rw [e1]; omega

/-- After the sixteen write-backs the result array is the pooled score of the three arguments. -/
theorem final (c : Dev nD) :
    (dats (F := Ideal) m 0 c).arrAt 4 cfg0.N
      = Cert.Pool.pooled (m ((c.tc : Thread nD τ).loc main_arg0)) (m ((c.tc : Thread nD τ).loc main_arg1)) (m ((c.tc : Thread nD τ).loc main_arg2)) :=
  (dats m 0 c).arrAt_eq_of_cover 4 (Cert.Pool.pooled (argX m c) (argW m c) (argB m c)) (fun t _ => flushed_eq m c t) covered

end Cert.KernelIdeal.HandValue

end
-- ==== Proof.RIVPay.lean ====
/-
  The reference body's stored values read at an index, at the ideal values.
-/
import proofs.«164441_g2000706673400859_pallasbulk_1295_19_alg».proof.Proof.Gen.ReferenceIdeal.Skeleton
import proofs.«164441_g2000706673400859_pallasbulk_1295_19_alg».proof.Proof.PoolSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.HandPay

open Idealize.ShloMosaic Idealize.ShloMosaic.ValueIdx
open Cert.ReferenceIdeal Cert.ReferenceIdeal.Gen

/-- The maximum over a loaded chunk's 64 tokens of the score against the weight block, folded from −∞. -/
def chunkMax (wv : FVec Ideal S512x512 .f32) (xr : Vec Ideal S1x64x512 .f32) (j : Fin 512) : EReal :=
  (Finset.univ : Finset (Fin 64)).fold max Cert.Pool.negInf (fun l' => ∑ k : Fin 512, xr (ix3 0 l' k) * wv (ix2 k j))

/-! ## The matmul read at an index -/

/-- On the left operand's row axis the product reads the output's row coordinate. -/
private theorem lhs_axis_0 (j : S64x512.Idx) (q : dot_S64x512_S512x512_S64x512_1_0_0_1_n_n.contr.Idx) :
    (dot_S64x512_S512x512_S64x512_1_0_0_1_n_n.lhsIdx j q (0 : Fin 2)).val = (j 0).val := by
  unfold DotDims.lhsIdx
  rw [dif_neg (show ¬((0 : Fin S64x512.rank) ∈ dot_S64x512_S512x512_S64x512_1_0_0_1_n_n.lhsBatch) by decide),
    dif_pos (show (0 : Fin S64x512.rank) ∈ dot_S64x512_S512x512_S64x512_1_0_0_1_n_n.lhsNonContracting by decide)]
  rfl

/-- On the left operand's contracted axis the product reads the contraction position. -/
private theorem lhs_axis_1 (j : S64x512.Idx) (q : dot_S64x512_S512x512_S64x512_1_0_0_1_n_n.contr.Idx) :
    (dot_S64x512_S512x512_S64x512_1_0_0_1_n_n.lhsIdx j q (1 : Fin 2)).val = (q ⟨0, Nat.one_pos⟩).val :=
  DotDims.lhsIdx_val_of_single _ rfl j q

/-- On the right operand's contracted axis the product reads the contraction position. -/
private theorem rhs_axis_0 (j : S64x512.Idx) (q : dot_S64x512_S512x512_S64x512_1_0_0_1_n_n.contr.Idx) :
    (dot_S64x512_S512x512_S64x512_1_0_0_1_n_n.rhsIdx j q (0 : Fin 2)).val = (q ⟨0, Nat.one_pos⟩).val :=
  DotDims.rhsIdx_val_of_single _ rfl j q

/-- On the right operand's column axis the product reads the output's column coordinate. -/
private theorem rhs_axis_1 (j : S64x512.Idx) (q : dot_S64x512_S512x512_S64x512_1_0_0_1_n_n.contr.Idx) :
    (dot_S64x512_S512x512_S64x512_1_0_0_1_n_n.rhsIdx j q (1 : Fin 2)).val = (j 1).val := by
  unfold DotDims.rhsIdx
  rw [dif_neg (show ¬((1 : Fin S512x512.rank) ∈ dot_S64x512_S512x512_S64x512_1_0_0_1_n_n.rhsBatch) by decide),
    dif_pos (show (1 : Fin S512x512.rank) ∈ dot_S64x512_S512x512_S64x512_1_0_0_1_n_n.rhsNonContracting by decide)]
  rfl

/-- A product into the zero accumulator, at row l and column j, is the sum over k of the left operand at (l, k) times
    the right operand at (k, j). -/
private theorem matmul_ix (lhs : FVec Ideal S64x512 .f32) (wv : FVec Ideal S512x512 .f32) (l : Fin 64) (j : Fin 512) :
    matmul (F := Ideal) dot_S64x512_S512x512_S64x512_1_0_0_1_n_n none lhs wv
        (constant (F := Ideal) S64x512 .f32 0x00000000#32) (ix2 l j)
      = ∑ k : Fin 512, lhs (ix2 l k) * wv (ix2 k j) := by
  refine (Ideal.matmul_constant_zero_apply dot_S64x512_S512x512_S64x512_1_0_0_1_n_n none lhs wv (ix2 l j)).trans ?_
  rw [← Equiv.sum_comp (contrEquiv1 dot_S64x512_S512x512_S64x512_1_0_0_1_n_n 512 rfl rfl).symm]
  refine Finset.sum_congr rfl fun k _ => ?_
  have hk := contrEquiv1_symm_val dot_S64x512_S512x512_S64x512_1_0_0_1_n_n 512 rfl rfl k
  have hl : dot_S64x512_S512x512_S64x512_1_0_0_1_n_n.lhsIdx (ix2 l j)
      ((contrEquiv1 dot_S64x512_S512x512_S64x512_1_0_0_1_n_n 512 rfl rfl).symm k) = ix2 l k := by
    funext a; refine Fin.ext ?_
    match a with
    | ⟨0, _⟩ => exact lhs_axis_0 _ _
    | ⟨1, _⟩ => exact (lhs_axis_1 _ _).trans hk
  have hr : dot_S64x512_S512x512_S64x512_1_0_0_1_n_n.rhsIdx (ix2 l j)
      ((contrEquiv1 dot_S64x512_S512x512_S64x512_1_0_0_1_n_n 512 rfl rfl).symm k) = ix2 k j := by
    funext a; refine Fin.ext ?_
    match a with
    | ⟨0, _⟩ => exact (rhs_axis_0 _ _).trans hk
    | ⟨1, _⟩ => exact rhs_axis_1 _ _
  rw [hl, hr]

/-! ## The maximum over the chunk's tokens read at an index -/

/-- The maximum over axis 1 of a 1 x 64 x 512 array, from −∞, at column j is the fold of max over the 64 entries
    (0, l', j). -/
private theorem reduce_ix (src : FVec Ideal S1x64x512 .f32) (j : Fin 512) :
    multiReduction (F := Ideal) .maximumf [1] S1x512 src 0xFF800000#32 reduces_S1x64x512_S1x512 (.inl rfl) rfl (ix2 0 j)
      = (Finset.univ : Finset (Fin 64)).fold max Cert.Pool.negInf (fun l' => src (ix3 0 l' j)) := by
  refine (Ideal.multiReduction_maximumf_single src 0xFF800000#32 reduces_S1x64x512_S1x512 (.inl rfl) rfl (ix2 0 j)).trans ?_
  refine Finset.fold_congr fun l' _ => ?_
  refine congrArg src (funext fun a => Fin.ext ?_)
  match a with
  | ⟨0, _⟩ => rfl
  | ⟨1, _⟩ => rfl
  | ⟨2, _⟩ => rfl

/-- One chunk's maximum: the scores of the chunk's 64 tokens against the weight block, then the maximum over the
    tokens from −∞, at column j. -/
private theorem chunk_ix (wv : FVec Ideal S512x512 .f32) (xr : Vec Ideal S1x64x512 .f32) (j : Fin 512) :
    multiReduction (F := Ideal) .maximumf [1] S1x512
        (shapeCast S1x64x512
          (matmul (F := Ideal) dot_S64x512_S512x512_S64x512_1_0_0_1_n_n none
            (shapeCast S64x512 xr shapeCasts_S1x64x512_S64x512 : FVec Ideal S64x512 .f32) wv
            (constant (F := Ideal) S64x512 .f32 0x00000000#32))
          shapeCasts_S64x512_S1x64x512)
        0xFF800000#32 reduces_S1x64x512_S1x512 (.inl rfl) rfl (ix2 0 j)
      = chunkMax wv xr j := by
  refine (reduce_ix _ j).trans ?_
  unfold chunkMax
  refine Finset.fold_congr fun l' _ => ?_
  refine (shapeCast_ab_1ab_apply _ shapeCasts_S64x512_S1x64x512 0 l' j).trans ?_
  refine (matmul_ix _ wv l' j).trans ?_
  refine Finset.sum_congr rfl fun k _ => ?_
  exact congrArg (fun t => t * wv (ix2 k j)) (shapeCast_1ab_ab_apply xr shapeCasts_S1x64x512_S64x512 l' k)

/-- The weight block passes through an identity cast. -/
theorem pay4_eq (v3 : Vec Ideal S512x512 .f32) : k0_pay4 (F := Ideal) v3 = v3 := by
  unfold k0_pay4
  exact shapeCast_self v3 shapeCasts_S512x512_S512x512

/-- The running maximum is reset to −∞. -/
theorem pay3_apply (i : S8x512.Idx) : k0_pay3 (F := Ideal) i = Cert.Pool.negInf := by
  unfold k0_pay3
  rfl

/-- The closing store: the running maxima plus the bias, clamped at zero. -/
theorem pay2_apply (acc : Vec Ideal S8x512 .f32) (bv : Vec Ideal S1x512 .f32) (r : Fin 8) (j : Fin 512) :
    k0_pay2 (F := Ideal) acc bv (ix2 r j) = max (acc (ix2 r j) + bv (ix2 0 j)) Cert.Pool.zero := by
  unfold k0_pay2
  refine (maximumf_apply _ _ _).trans ?_
  refine congrArg₂ max ?_ rfl
  refine (addf_apply _ _ _).trans ?_
  refine congrArg₂ (fun a b => a + b) (congrFun (shapeCast_self acc shapeCasts_S8x512_S8x512) (ix2 r j)) ?_
  refine (broadcastTo_1b_ab_apply _ broadcasts_S1x512_S8x512 r j).trans ?_
  exact congrFun (shapeCast_self bv shapeCasts_S1x512_S1x512) (ix2 0 j)

/-- One step of a row's running maximum: the row's current maximum joined with a chunk's maximum.  The same for every
    step whose whole text lies in one part of the body. -/
theorem pay5_apply (v3 : Vec Ideal S512x512 .f32) (xr : Vec Ideal S1x64x512 .f32) (cur : Vec Ideal S1x512 .f32) (j : Fin 512) :
    k0_pay5 (F := Ideal) v3 xr cur (ix2 0 j) = max (cur (ix2 0 j)) (chunkMax v3 xr j) := by
  unfold k0_pay5
  rw [pay4_eq]
  refine (maximumf_apply _ _ _).trans ?_
  exact congrArg₂ max (congrFun (shapeCast_self cur shapeCasts_S1x512_S1x512) (ix2 0 j)) (chunk_ix v3 xr j)
theorem pay6_apply (v3 : Vec Ideal S512x512 .f32) (xr : Vec Ideal S1x64x512 .f32) (cur : Vec Ideal S1x512 .f32) (j : Fin 512) :
    k0_pay6 (F := Ideal) v3 xr cur (ix2 0 j) = max (cur (ix2 0 j)) (chunkMax v3 xr j) := by
  unfold k0_pay6
  rw [pay4_eq]
  refine (maximumf_apply _ _ _).trans ?_
  exact congrArg₂ max (congrFun (shapeCast_self cur shapeCasts_S1x512_S1x512) (ix2 0 j)) (chunk_ix v3 xr j)
/-- A step cut in two by the end of a part: the scores before the cut, the maxima after it. -/
theorem pay8_apply (v3 : Vec Ideal S512x512 .f32) (xr : Vec Ideal S1x64x512 .f32) (cur : Vec Ideal S1x512 .f32) (j : Fin 512) :
    k0_pay8 (F := Ideal) (k0_pay7 v3 xr) cur (ix2 0 j) = max (cur (ix2 0 j)) (chunkMax v3 xr j) := by
  unfold k0_pay8 k0_pay7
  rw [pay4_eq]
  refine (maximumf_apply _ _ _).trans ?_
  exact congrArg₂ max (congrFun (shapeCast_self cur shapeCasts_S1x512_S1x512) (ix2 0 j)) (chunk_ix v3 xr j)
theorem pay12_apply (wv : FVec Ideal S512x512 .f32) (xr : Vec Ideal S1x64x512 .f32) (cur : Vec Ideal S1x512 .f32) (j : Fin 512) :
    k0_pay12 (F := Ideal) (k0_pay11 wv xr) cur (ix2 0 j) = max (cur (ix2 0 j)) (chunkMax wv xr j) := by
  unfold k0_pay12 k0_pay11
  refine (maximumf_apply _ _ _).trans ?_
  exact congrArg₂ max (congrFun (shapeCast_self cur shapeCasts_S1x512_S1x512) (ix2 0 j)) (chunk_ix wv xr j)
theorem pay1_apply (wv : FVec Ideal S512x512 .f32) (xr : Vec Ideal S1x64x512 .f32) (cur : Vec Ideal S1x512 .f32) (j : Fin 512) :
    k0_pay1 (F := Ideal) wv xr cur (ix2 0 j) = max (cur (ix2 0 j)) (chunkMax wv xr j) := by
  unfold k0_pay1
  refine (maximumf_apply _ _ _).trans ?_
  exact congrArg₂ max (congrFun (shapeCast_self cur shapeCasts_S1x512_S1x512) (ix2 0 j)) (chunk_ix wv xr j)
theorem pay9_apply (wv : FVec Ideal S512x512 .f32) (xr : Vec Ideal S1x64x512 .f32) (cur : Vec Ideal S1x512 .f32) (j : Fin 512) :
    k0_pay9 (F := Ideal) wv xr cur (ix2 0 j) = max (cur (ix2 0 j)) (chunkMax wv xr j) := by
  unfold k0_pay9
  refine (maximumf_apply _ _ _).trans ?_
  exact congrArg₂ max (congrFun (shapeCast_self cur shapeCasts_S1x512_S1x512) (ix2 0 j)) (chunk_ix wv xr j)
theorem pay10_apply (wv : FVec Ideal S512x512 .f32) (xr : Vec Ideal S1x64x512 .f32) (cur : Vec Ideal S1x512 .f32) (j : Fin 512) :
    k0_pay10 (F := Ideal) wv xr cur (ix2 0 j) = max (cur (ix2 0 j)) (chunkMax wv xr j) := by
  unfold k0_pay10
  refine (maximumf_apply _ _ _).trans ?_
  exact congrArg₂ max (congrFun (shapeCast_self cur shapeCasts_S1x512_S1x512) (ix2 0 j)) (chunk_ix wv xr j)
theorem pay13_apply (wv : FVec Ideal S512x512 .f32) (xr : Vec Ideal S1x64x512 .f32) (cur : Vec Ideal S1x512 .f32) (j : Fin 512) :
    k0_pay13 (F := Ideal) wv xr cur (ix2 0 j) = max (cur (ix2 0 j)) (chunkMax wv xr j) := by
  unfold k0_pay13
  refine (maximumf_apply _ _ _).trans ?_
  exact congrArg₂ max (congrFun (shapeCast_self cur shapeCasts_S1x512_S1x512) (ix2 0 j)) (chunk_ix wv xr j)
theorem pay14_apply (wv : FVec Ideal S512x512 .f32) (xr : Vec Ideal S1x64x512 .f32) (cur : Vec Ideal S1x512 .f32) (j : Fin 512) :
    k0_pay14 (F := Ideal) wv xr cur (ix2 0 j) = max (cur (ix2 0 j)) (chunkMax wv xr j) := by
  unfold k0_pay14
  refine (maximumf_apply _ _ _).trans ?_
  exact congrArg₂ max (congrFun (shapeCast_self cur shapeCasts_S1x512_S1x512) (ix2 0 j)) (chunk_ix wv xr j)
theorem pay15_apply (wv : FVec Ideal S512x512 .f32) (xr : Vec Ideal S1x64x512 .f32) (cur : Vec Ideal S1x512 .f32) (j : Fin 512) :
    k0_pay15 (F := Ideal) wv xr cur (ix2 0 j) = max (cur (ix2 0 j)) (chunkMax wv xr j) := by
  unfold k0_pay15
  refine (maximumf_apply _ _ _).trans ?_
  exact congrArg₂ max (congrFun (shapeCast_self cur shapeCasts_S1x512_S1x512) (ix2 0 j)) (chunk_ix wv xr j)
theorem pay16_apply (wv : FVec Ideal S512x512 .f32) (xr : Vec Ideal S1x64x512 .f32) (cur : Vec Ideal S1x512 .f32) (j : Fin 512) :
    k0_pay16 (F := Ideal) wv xr cur (ix2 0 j) = max (cur (ix2 0 j)) (chunkMax wv xr j) := by
  unfold k0_pay16
  refine (maximumf_apply _ _ _).trans ?_
  exact congrArg₂ max (congrFun (shapeCast_self cur shapeCasts_S1x512_S1x512) (ix2 0 j)) (chunk_ix wv xr j)
theorem pay17_apply (wv : FVec Ideal S512x512 .f32) (xr : Vec Ideal S1x64x512 .f32) (cur : Vec Ideal S1x512 .f32) (j : Fin 512) :
    k0_pay17 (F := Ideal) wv xr cur (ix2 0 j) = max (cur (ix2 0 j)) (chunkMax wv xr j) := by
  unfold k0_pay17
  refine (maximumf_apply _ _ _).trans ?_
  exact congrArg₂ max (congrFun (shapeCast_self cur shapeCasts_S1x512_S1x512) (ix2 0 j)) (chunk_ix wv xr j)
theorem pay18_apply (wv : FVec Ideal S512x512 .f32) (xr : Vec Ideal S1x64x512 .f32) (cur : Vec Ideal S1x512 .f32) (j : Fin 512) :
    k0_pay18 (F := Ideal) wv xr cur (ix2 0 j) = max (cur (ix2 0 j)) (chunkMax wv xr j) := by
  unfold k0_pay18
  refine (maximumf_apply _ _ _).trans ?_
  exact congrArg₂ max (congrFun (shapeCast_self cur shapeCasts_S1x512_S1x512) (ix2 0 j)) (chunk_ix wv xr j)
theorem pay19_apply (wv : FVec Ideal S512x512 .f32) (xr : Vec Ideal S1x64x512 .f32) (cur : Vec Ideal S1x512 .f32) (j : Fin 512) :
    k0_pay19 (F := Ideal) wv xr cur (ix2 0 j) = max (cur (ix2 0 j)) (chunkMax wv xr j) := by
  unfold k0_pay19
  refine (maximumf_apply _ _ _).trans ?_
  exact congrArg₂ max (congrFun (shapeCast_self cur shapeCasts_S1x512_S1x512) (ix2 0 j)) (chunk_ix wv xr j)
theorem pay20_apply (wv : FVec Ideal S512x512 .f32) (xr : Vec Ideal S1x64x512 .f32) (cur : Vec Ideal S1x512 .f32) (j : Fin 512) :
    k0_pay20 (F := Ideal) wv xr cur (ix2 0 j) = max (cur (ix2 0 j)) (chunkMax wv xr j) := by
  unfold k0_pay20
  refine (maximumf_apply _ _ _).trans ?_
  exact congrArg₂ max (congrFun (shapeCast_self cur shapeCasts_S1x512_S1x512) (ix2 0 j)) (chunk_ix wv xr j)
theorem pay21_apply (wv : FVec Ideal S512x512 .f32) (xr : Vec Ideal S1x64x512 .f32) (cur : Vec Ideal S1x512 .f32) (j : Fin 512) :
    k0_pay21 (F := Ideal) wv xr cur (ix2 0 j) = max (cur (ix2 0 j)) (chunkMax wv xr j) := by
  unfold k0_pay21
  refine (maximumf_apply _ _ _).trans ?_
  exact congrArg₂ max (congrFun (shapeCast_self cur shapeCasts_S1x512_S1x512) (ix2 0 j)) (chunk_ix wv xr j)

end Cert.ReferenceIdeal.HandPay

end
-- ==== Proof.RIVHost.lean ====
/-
  The arrays the reference's region reads, as functions of the program's arguments: x itself, the weight padded by
  nothing, the bias padded by nothing.
-/
import proofs.«164441_g2000706673400859_pallasbulk_1295_19_alg».proof.Proof.Gen.ReferenceIdeal.Frame
import proofs.«164441_g2000706673400859_pallasbulk_1295_19_alg».proof.Proof.PoolSpec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.ReferenceIdeal.HandHost

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable (m : (ℓ : Loc nD τ sig) → Buf (Elt Ideal) ℓ)

/-- The region's weight is the zero-width pad of the weight. -/
theorem V_main_v0_eq (c : Dev nD) :
    (V m c main_v0 : S512x512.Idx → EReal)
      = pad S512x512 ![0, 0] ![0, 0] ![0, 0] (m ((c.tc : Thread nD τ).loc main_arg1) : S512x512.Idx → EReal)
          (sitofp (F := Ideal) .f32 (constantI S_ 32 0#32)) pads_S512x512_S512x512_000_000 h_S_ := by
  dsimp only [V]
  simp only [hostOps0, hostOps0_1, hostOps0_2, hostOps0_3, List.flatten_cons, List.flatten_nil, List.append_nil, List.cons_append, List.nil_append]
  after_results
  rfl

/-- The region's bias is the zero-width pad of the bias. -/
theorem V_main_v1_eq (c : Dev nD) :
    (V m c main_v1 : S1x512.Idx → EReal)
      = pad S1x512 ![0, 0] ![0, 0] ![0, 0] (m ((c.tc : Thread nD τ).loc main_arg2) : S1x512.Idx → EReal)
          (sitofp (F := Ideal) .f32 (constantI S_ 32 0#32)) pads_S1x512_S1x512_000_000 h_S_ := by
  dsimp only [V]
  simp only [hostOps0, hostOps0_1, hostOps0_2, hostOps0_3, List.flatten_cons, List.flatten_nil, List.append_nil, List.cons_append, List.nil_append]
  after_results
  rfl

theorem V_main_v0_apply (c : Dev nD) (k j : Fin 512) :
    (V m c main_v0 : S512x512.Idx → EReal) (ix2 k j) = (m ((c.tc : Thread nD τ).loc main_arg1) : S512x512.Idx → EReal) (ix2 k j) := by
  rw [V_main_v0_eq]
  refine pad_apply_of_inside _ _ _ _ _ _ _ (ix2 k j) (ix2 k j) (fun a => ?_)
  match a with
  | ⟨0, _⟩ => simp
  | ⟨1, _⟩ => simp

theorem V_main_v1_apply (c : Dev nD) (j : Fin 512) :
    (V m c main_v1 : S1x512.Idx → EReal) (ix2 0 j) = (m ((c.tc : Thread nD τ).loc main_arg2) : S1x512.Idx → EReal) (ix2 0 j) := by
  rw [V_main_v1_eq]
  refine pad_apply_of_inside _ _ _ _ _ _ _ (ix2 0 j) (ix2 0 j) (fun a => ?_)
  match a with
  | ⟨0, _⟩ => simp
  | ⟨1, _⟩ => simp

end Cert.ReferenceIdeal.HandHost

end
-- ==== Proof.RIVOut.lean ====
/-
  What one run of the reference's body leaves in its output buffer, at the ideal values.

  The body resets the 8 x 512 buffer to −∞, then for each of its 8 rows and each of the two chunks of 64 tokens reads the
  row back, joins it with the chunk's maximum of scores and stores it; at the end it reads the whole buffer back, adds
  the bias and clamps at zero.  Reading each store back through the ones before it, row ρ, column j ends at
  max (max (max −∞ (first chunk's maximum)) (second chunk's maximum) + bias[0, j], 0).
-/
import proofs.«164441_g2000706673400859_pallasbulk_1295_19_alg».proof.Proof.Gen.ReferenceIdeal.Frame
import proofs.«164441_g2000706673400859_pallasbulk_1295_19_alg».proof.Proof.PoolSpec
import proofs.«164441_g2000706673400859_pallasbulk_1295_19_alg».proof.Proof.RIVPay
import Idealize.ShloMosaic.Lib.Pipeline.Value
import Idealize.ShloMosaic.Lib.Pipeline.RowLoads
import Idealize.ShloMosaic.Lib.ValueIdx
import Idealize.ShloMosaic.Lib.ValueLayout
import Idealize.ShloMosaic.PureOps.Ideal.Laws

set_option maxRecDepth 16384

noncomputable section

namespace Cert.ReferenceIdeal.HandValue

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

/-- Row `ρ` of an 8-row block of x, chunk `s` of its tokens (64 s … 64 s + 63): the maximum of the scores against the
    weight block, folded from −∞. -/
def rowChunkMax (wv : Vec Ideal S512x512 .f32) (a : Vec Ideal S8x128x512 .f32) (ρ : Fin 8) (s : Fin 2) (j : Fin 512) : EReal :=
  (Finset.univ : Finset (Fin 64)).fold max Cert.Pool.negInf
    (fun l' => ∑ k : Fin 512, a (ix3 ρ (⟨64 * s.val + l'.val, by omega⟩ : Fin 128) k) * wv (ix2 k j))

/-- Row `ρ` of the 8-row output block: −∞ joined with the first chunk's maximum, then with the second's, the bias
    added, clamped at zero. -/
def rowVal (wv : Vec Ideal S512x512 .f32) (bv : Vec Ideal S1x512 .f32) (a : Vec Ideal S8x128x512 .f32) (ρ : Fin 8) (j : Fin 512) : EReal :=
  max (max (max Cert.Pool.negInf (rowChunkMax wv a ρ 0 j)) (rowChunkMax wv a ρ 1 j) + bv (ix2 0 j)) Cert.Pool.zero

/-! ## Reading a row of the 8 x 512 buffer -/

/-- A loaded chunk that reads the block of x at row `ρ`, tokens `64 s + l'`, against a weight that reads `x1`, has the
    row's chunk maximum. -/
theorem chunkMax_eq_rowChunkMax (x0 : Vec Ideal S8x128x512 .f32) (x1 : Vec Ideal S512x512 .f32)
    (wv : FVec Ideal S512x512 .f32) (xr : Vec Ideal S1x64x512 .f32) (ρ : Fin 8) (s : Fin 2) (j : Fin 512)
    (hw : ∀ (k j : Fin 512), wv (ix2 k j) = x1 (ix2 k j))
    (hx : ∀ (l' : Fin 64) (k : Fin 512), xr (ix3 0 l' k) = x0 (ix3 ρ (⟨64 * s.val + l'.val, by omega⟩ : Fin 128) k)) :
    HandPay.chunkMax wv xr j = rowChunkMax x1 x0 ρ s j := by
  unfold HandPay.chunkMax rowChunkMax
  congr 1
  funext l'
  exact Finset.sum_congr rfl fun k _ => by rw [hw, hx]

/-- A load of 64 tokens of one row of the whole block of x reads the block there. -/
theorem xload_apply (arg3 : Memref sig .tc .vmem S8x128x512 .f32) (harg3 : arg3.IsWhole) (x0 : Vec Ideal S8x128x512 .f32)
    (o c0 : Nat) (inb : ∀ a, (![o, c0, 0] : Fin 3 → Nat) a + S1x64x512.size a ≤ S8x128x512.size a)
    (ρ : Fin 8) (s : Fin 2) (ho : ρ.val = o) (hc : 64 * s.val = c0) (l' : Fin 64) (k : Fin 512) :
    View.readAt (Elt Ideal) arg3.view (Rect.unit (s := S8x128x512) ![o, c0, 0] S1x64x512.size inb).toLoadRect (harg3.unread x0) (ix3 0 l' k)
      = x0 (ix3 ρ (⟨64 * s.val + l'.val, by omega⟩ : Fin 128) k) := by
  rw [View.readAt_eq_ld, harg3.read_unread]
  show x0 _ = x0 _
  refine congrArg x0 ?_
  funext a; apply Fin.ext
  match a with
  | ⟨0, _⟩ => show o + 1 * 0 = ρ.val; omega
  | ⟨1, _⟩ => show c0 + 1 * l'.val = 64 * s.val + l'.val; omega
  | ⟨2, _⟩ => show 0 + 1 * k.val = k.val; omega

/-- A load of the whole weight buffer reads the weight. -/
theorem wload_apply (arg4 : Memref sig .tc .vmem S512x512 .f32) (harg4 : arg4.IsWhole) (x1 : Vec Ideal S512x512 .f32)
    (inb : ∀ a, (![0, 0] : Fin 2 → Nat) a + S512x512.size a ≤ S512x512.size a) (k j : Fin 512) :
    View.readAt (Elt Ideal) arg4.view (Rect.unit (s := S512x512) ![0, 0] S512x512.size inb).toLoadRect (harg4.unread x1) (ix2 k j)
      = x1 (ix2 k j) := by
  rw [View.readAt_eq_ld, harg4.read_unread]
  show x1 _ = x1 _
  refine congrArg x1 ?_
  funext a; apply Fin.ext
  match a with
  | ⟨0, _⟩ => show 0 + 1 * k.val = k.val; omega
  | ⟨1, _⟩ => show 0 + 1 * j.val = j.val; omega

/-- A load of row `o` of the buffer after the stores `L` reads, at column `j`, what the stores left at (o, j). -/
theorem rowload_apply (v : View sig .tc .vmem S8x512 .f32) (L : List (View.Piece (Elt Ideal) S8x512 .f32)) (o : Nat)
    (inb : ∀ a, (![o, 0] : Fin 2 → Nat) a + S1x512.size a ≤ S8x512.size a) (ρ : Fin 8) (ho : ρ.val = o) (j : Fin 512) :
    v.readCov L (Rect.unit (s := S8x512) ![o, 0] S1x512.size inb).toLoadRect (ix2 0 j) = View.canon L (ix2 ρ j) := by
  rw [View.readCov_eq_canon']
  show View.canon L _ = View.canon L _
  refine congrArg (View.canon L) ?_
  funext a; apply Fin.ext
  match a with
  | ⟨0, _⟩ => show o + 1 * 0 = ρ.val; omega
  | ⟨1, _⟩ => show 0 + 1 * j.val = j.val; omega

/-- After a store of row `o`, the buffer reads the store's payload on that row and what it read before elsewhere. -/
theorem canon_rowstore (L : List (View.Piece (Elt Ideal) S8x512 .f32)) (o : Nat)
    (inb : ∀ a, (![o, 0] : Fin 2 → Nat) a + S1x512.size a ≤ S8x512.size a) (P : S1x512.Idx → Elt Ideal .f32) (ρ : Fin 8) (j : Fin 512) :
    View.canon ((⟨Rect.unit (s := S8x512) ![o, 0] S1x512.size inb, P⟩ : View.Piece (Elt Ideal) S8x512 .f32) :: L) (ix2 ρ j)
      = if ρ.val = o then P (ix2 0 j) else View.canon L (ix2 ρ j) := by
  by_cases h : ρ.val = o
  · rw [if_pos h]
    have e : (Rect.unit (s := S8x512) ![o, 0] S1x512.size inb).emb (ix2 (0 : Fin 1) j) = ix2 ρ j := by
      funext a; apply Fin.ext
      match a with
      | ⟨0, _⟩ => show o + 1 * 0 = ρ.val; omega
      | ⟨1, _⟩ => show 0 + 1 * j.val = j.val; omega
    exact (congrArg (View.canon _) e.symm).trans
      (View.canon_cons_emb (Val := Elt Ideal) (Rect.unit (s := S8x512) ![o, 0] S1x512.size inb) P L (ix2 (0 : Fin 1) j))
  · rw [if_neg h]
    refine View.canon_cons_of_not_mem _ L ?_
    intro hm
    have hm' : ix2 ρ j ∈ (Rect.unit (s := S8x512) ![o, 0] S1x512.size inb).set := hm
    rw [Rect.mem_set_unit] at hm'
    have h0 := hm' 0
    have h0' : o ≤ ρ.val ∧ ρ.val < o + 1 := h0
    omega

/-- One step of the rows' running maxima: row `o` is joined with its chunk maximum over half `s`; the other rows stay. -/
def step (x0 : Vec Ideal S8x128x512 .f32) (x1 : Vec Ideal S512x512 .f32) (prev : Fin 8 → Fin 512 → EReal) (o : Nat) (s : Fin 2) :
    Fin 8 → Fin 512 → EReal :=
  fun ρ j => if ρ.val = o then max (prev ρ j) (rowChunkMax x1 x0 ρ s j) else prev ρ j

/-- A store of row `o` whose payload joins the row's read-back with the chunk maximum of half `s` of row `o` of the block
    takes the buffer's contents `prev` to `step prev o s`. -/
theorem stage (x0 : Vec Ideal S8x128x512 .f32) (x1 : Vec Ideal S512x512 .f32)
    (L : List (View.Piece (Elt Ideal) S8x512 .f32)) (prev : Fin 8 → Fin 512 → EReal)
    (hL : ∀ (ρ : Fin 8) (j : Fin 512), View.canon L (ix2 ρ j) = prev ρ j)
    (o : Nat) (ho : o < 8) (s : Fin 2)
    (inb : ∀ a, (![o, 0] : Fin 2 → Nat) a + S1x512.size a ≤ S8x512.size a)
    (wv : FVec Ideal S512x512 .f32) (xr : Vec Ideal S1x64x512 .f32) (cur : Vec Ideal S1x512 .f32)
    (P : S1x512.Idx → Elt Ideal .f32)
    (hP : ∀ j : Fin 512, P (ix2 0 j) = max (cur (ix2 0 j)) (HandPay.chunkMax wv xr j))
    (hcur : ∀ j : Fin 512, cur (ix2 0 j) = View.canon L (ix2 (⟨o, ho⟩ : Fin 8) j))
    (hw : ∀ (k j : Fin 512), wv (ix2 k j) = x1 (ix2 k j))
    (hx : ∀ (l' : Fin 64) (k : Fin 512), xr (ix3 0 l' k) = x0 (ix3 (⟨o, ho⟩ : Fin 8) (⟨64 * s.val + l'.val, by omega⟩ : Fin 128) k))
    (ρ : Fin 8) (j : Fin 512) :
    View.canon ((⟨Rect.unit (s := S8x512) ![o, 0] S1x512.size inb, P⟩ : View.Piece (Elt Ideal) S8x512 .f32) :: L) (ix2 ρ j)
      = step x0 x1 prev o s ρ j := by
  rw [canon_rowstore]
  unfold step
  by_cases h : ρ.val = o
  · obtain rfl : ρ = ⟨o, ho⟩ := Fin.ext h
    rw [if_pos h, if_pos h, hP, hcur, hL, chunkMax_eq_rowChunkMax x0 x1 wv xr ⟨o, ho⟩ s j hw hx]
  · rw [if_neg h, if_neg h, hL]

/-- A load of the whole buffer after the stores `L` reads what the stores left. -/
theorem wholeload_apply (v : View sig .tc .vmem S8x512 .f32) (L : List (View.Piece (Elt Ideal) S8x512 .f32))
    (inb : ∀ a, (![0, 0] : Fin 2 → Nat) a + S8x512.size a ≤ S8x512.size a) (ρ : Fin 8) (j : Fin 512) :
    v.readCov L (Rect.unit (s := S8x512) ![0, 0] S8x512.size inb).toLoadRect (ix2 ρ j) = View.canon L (ix2 ρ j) := by
  rw [View.readCov_eq_canon']
  show View.canon L _ = View.canon L _
  refine congrArg (View.canon L) ?_
  funext a; apply Fin.ext
  match a with
  | ⟨0, _⟩ => show 0 + 1 * ρ.val = ρ.val; omega
  | ⟨1, _⟩ => show 0 + 1 * j.val = j.val; omega

/-- A load of the whole bias buffer reads the bias. -/
theorem bload_apply (arg5 : Memref sig .tc .vmem S1x512 .f32) (harg5 : arg5.IsWhole) (x2 : Vec Ideal S1x512 .f32)
    (inb : ∀ a, (![0, 0] : Fin 2 → Nat) a + S1x512.size a ≤ S1x512.size a) (j : Fin 512) :
    View.readAt (Elt Ideal) arg5.view (Rect.unit (s := S1x512) ![0, 0] S1x512.size inb).toLoadRect (harg5.unread x2) (ix2 0 j)
      = x2 (ix2 0 j) := by
  rw [View.readAt_eq_ld, harg5.read_unread]
  show x2 _ = x2 _
  refine congrArg x2 ?_
  funext a; apply Fin.ext
  match a with
  | ⟨0, _⟩ => show 0 + 1 * 0 = 0; omega
  | ⟨1, _⟩ => show 0 + 1 * j.val = j.val; omega

/-- The buffer's rows after the first `n` row stores of the body: all rows start at −∞; store `n` (counted from 0) joins
    row `n / 2` with its chunk maximum over half `n % 2`. -/
def contents (x0 : Vec Ideal S8x128x512 .f32) (x1 : Vec Ideal S512x512 .f32) : Nat → Fin 8 → Fin 512 → EReal
  | 0 => fun _ _ => Cert.Pool.negInf
  | n + 1 => step x0 x1 (contents x0 x1 n) (n / 2) ⟨n % 2, Nat.mod_lt _ (by decide)⟩

/-- In closed form: a row whose two stores are done holds the join of −∞ with its two chunk maxima, a row with one store
    done the join with the first, the others −∞. -/
theorem contents_eq (x0 : Vec Ideal S8x128x512 .f32) (x1 : Vec Ideal S512x512 .f32) (n : Nat) (ρ : Fin 8) (j : Fin 512) :
    contents x0 x1 n ρ j
      = if 2 * ρ.val + 2 ≤ n then max (max Cert.Pool.negInf (rowChunkMax x1 x0 ρ 0 j)) (rowChunkMax x1 x0 ρ 1 j)
        else if 2 * ρ.val + 1 ≤ n then max Cert.Pool.negInf (rowChunkMax x1 x0 ρ 0 j) else Cert.Pool.negInf := by
  induction n with
  | zero => rw [if_neg (by omega), if_neg (by omega)]; rfl
  | succ n ih =>
    show step x0 x1 (contents x0 x1 n) (n / 2) ⟨n % 2, Nat.mod_lt _ (by decide)⟩ ρ j = _
    unfold step
    rw [ih]
    by_cases h : ρ.val = n / 2
    · rw [if_pos h]
      rcases Nat.mod_two_eq_zero_or_one n with h2 | h2
      · have hs : (⟨n % 2, Nat.mod_lt _ (by decide)⟩ : Fin 2) = 0 := Fin.ext h2
        rw [hs, if_neg (by omega), if_neg (by omega), if_neg (by omega), if_pos (by omega)]
      · have hs : (⟨n % 2, Nat.mod_lt _ (by decide)⟩ : Fin 2) = 1 := Fin.ext h2
        rw [hs, if_neg (by omega), if_pos (by omega), if_pos (by omega)]
    · rw [if_neg h]
      by_cases h1 : 2 * ρ.val + 2 ≤ n
      · rw [if_pos h1, if_pos (by omega)]
      · rw [if_neg h1]
        by_cases h2 : 2 * ρ.val + 1 ≤ n
        · exfalso; omega
        · rw [if_neg h2, if_neg (by omega), if_neg (by omega)]

/-- The zero offsets of a whole-buffer access, as a constant function. -/
theorem hz : (![0, 0] : Fin 2 → Nat) = fun _ => 0 := funext fun a => by fin_cases a <;> rfl

section Stages

variable (c : Dev nD) (arg3 : Memref sig .tc .vmem S8x128x512 .f32) (harg3 : arg3.IsWhole)
  (arg4 : Memref sig .tc .vmem S512x512 .f32) (harg4 : arg4.IsWhole) (arg6 : Memref sig .tc .vmem S8x512 .f32)
  (x0 : Vec Ideal S8x128x512 .f32) (x1 : Vec Ideal S512x512 .f32)

/-- The weight block the body keeps after its identity cast reads the weight buffer's contents. -/
theorem wr_apply (k j : Fin 512) : kernelRun0_A.sl.r (F := Ideal) c arg4 harg4 x1 (ix2 k j) = x1 (ix2 k j) := by
  unfold kernelRun0_A.sl.r
  rw [HandPay.pay4_eq]
  exact wload_apply arg4 harg4 x1 _ k j

/-- After the reset every entry of the buffer is −∞. -/
theorem st1 (ρ : Fin 8) (j : Fin 512) :
    View.canon (kernelRun0_A.sl.H3_1 (F := Ideal)) (ix2 ρ j) = contents x0 x1 0 ρ j := by
  unfold kernelRun0_A.sl.H3_1
  rw [View.canon_unit_zero (S := S8x512) hz]
  exact HandPay.pay3_apply _

/-- After the first store of row 0 the buffer holds the running maxima of 1 row stores. -/
theorem st2 (ρ : Fin 8) (j : Fin 512) :
    View.canon (kernelRun0_A.sl.H3_2 (F := Ideal) c arg3 harg3 arg4 harg4 arg6 x0 x1) (ix2 ρ j) = contents x0 x1 1 ρ j := by
  unfold kernelRun0_A.sl.H3_2 kernelRun0_A.sl.v10
  exact stage x0 x1 _ (contents x0 x1 0) (st1 x0 x1) 0 (by omega) 0 _ _ _ _ _
    (fun j => HandPay.pay5_apply _ _ _ j)
    (fun j => rowload_apply _ _ 0 _ ⟨0, by omega⟩ rfl j)
    (wload_apply arg4 harg4 x1 _)
    (fun l' k => xload_apply arg3 harg3 x0 0 0 _ ⟨0, by omega⟩ 0 rfl rfl l' k)
    ρ j

/-- After the second store of row 0 the buffer holds the running maxima of 2 row stores. -/
theorem st3 (ρ : Fin 8) (j : Fin 512) :
    View.canon (kernelRun0_A.sl.H3_3 (F := Ideal) c arg3 harg3 arg4 harg4 arg6 x0 x1) (ix2 ρ j) = contents x0 x1 2 ρ j := by
  unfold kernelRun0_A.sl.H3_3 kernelRun0_A.sl.v19
  exact stage x0 x1 _ (contents x0 x1 1) (st2 c arg3 harg3 arg4 harg4 arg6 x0 x1) 0 (by omega) 1 _ _ _ _ _
    (fun j => HandPay.pay6_apply _ _ _ j)
    (fun j => rowload_apply _ _ 0 _ ⟨0, by omega⟩ rfl j)
    (wload_apply arg4 harg4 x1 _)
    (fun l' k => xload_apply arg3 harg3 x0 0 64 _ ⟨0, by omega⟩ 1 rfl rfl l' k)
    ρ j

/-- After the first store of row 1 the buffer holds the running maxima of 3 row stores. -/
theorem st4 (ρ : Fin 8) (j : Fin 512) :
    View.canon (kernelRun0_A.sl.H3_4 (F := Ideal) c arg3 harg3 arg4 harg4 arg6 x0 x1) (ix2 ρ j) = contents x0 x1 3 ρ j := by
  unfold kernelRun0_A.sl.H3_4 kernelRun0_A.sl.v28 kernelRun0_A.sl.r_1
  exact stage x0 x1 _ (contents x0 x1 2) (st3 c arg3 harg3 arg4 harg4 arg6 x0 x1) 1 (by omega) 0 _ _ _ _ _
    (fun j => HandPay.pay8_apply _ _ _ j)
    (fun j => rowload_apply _ _ 1 _ ⟨1, by omega⟩ rfl j)
    (wload_apply arg4 harg4 x1 _)
    (fun l' k => xload_apply arg3 harg3 x0 1 0 _ ⟨1, by omega⟩ 0 rfl rfl l' k)
    ρ j

/-- After the second store of row 1 the buffer holds the running maxima of 4 row stores. -/
theorem st5 (ρ : Fin 8) (j : Fin 512) :
    View.canon (kernelRun0_A.sl.H3_5 (F := Ideal) c arg3 harg3 arg4 harg4 arg6 x0 x1) (ix2 ρ j) = contents x0 x1 4 ρ j := by
  unfold kernelRun0_A.sl.H3_5 kernelRun0_A.sl.v37
  exact stage x0 x1 _ (contents x0 x1 3) (st4 c arg3 harg3 arg4 harg4 arg6 x0 x1) 1 (by omega) 1 _ _ _ _ _
    (fun j => HandPay.pay9_apply _ _ _ j)
    (fun j => rowload_apply _ _ 1 _ ⟨1, by omega⟩ rfl j)
    (wr_apply c arg4 harg4 x1)
    (fun l' k => xload_apply arg3 harg3 x0 1 64 _ ⟨1, by omega⟩ 1 rfl rfl l' k)
    ρ j

/-- After the first store of row 2 the buffer holds the running maxima of 5 row stores. -/
theorem st6 (ρ : Fin 8) (j : Fin 512) :
    View.canon (kernelRun0_A.sl.H3_6 (F := Ideal) c arg3 harg3 arg4 harg4 arg6 x0 x1) (ix2 ρ j) = contents x0 x1 5 ρ j := by
  unfold kernelRun0_A.sl.H3_6 kernelRun0_A.sl.v46
  exact stage x0 x1 _ (contents x0 x1 4) (st5 c arg3 harg3 arg4 harg4 arg6 x0 x1) 2 (by omega) 0 _ _ _ _ _
    (fun j => HandPay.pay10_apply _ _ _ j)
    (fun j => rowload_apply _ _ 2 _ ⟨2, by omega⟩ rfl j)
    (wr_apply c arg4 harg4 x1)
    (fun l' k => xload_apply arg3 harg3 x0 2 0 _ ⟨2, by omega⟩ 0 rfl rfl l' k)
    ρ j

/-- After the second store of row 2 the buffer holds the running maxima of 6 row stores. -/
theorem st7 (ρ : Fin 8) (j : Fin 512) :
    View.canon (kernelRun0_A.sl.H3_7 (F := Ideal) c arg3 harg3 arg4 harg4 arg6 x0 x1) (ix2 ρ j) = contents x0 x1 6 ρ j := by
  unfold kernelRun0_A.sl.H3_7 kernelRun0_A.sl.v55 kernelRun0_A.sl.r_2
  exact stage x0 x1 _ (contents x0 x1 5) (st6 c arg3 harg3 arg4 harg4 arg6 x0 x1) 2 (by omega) 1 _ _ _ _ _
    (fun j => HandPay.pay12_apply _ _ _ j)
    (fun j => rowload_apply _ _ 2 _ ⟨2, by omega⟩ rfl j)
    (wr_apply c arg4 harg4 x1)
    (fun l' k => xload_apply arg3 harg3 x0 2 64 _ ⟨2, by omega⟩ 1 rfl rfl l' k)
    ρ j

/-- After the first store of row 3 the buffer holds the running maxima of 7 row stores. -/
theorem st8 (ρ : Fin 8) (j : Fin 512) :
    View.canon (kernelRun0_A.sl.H3_8 (F := Ideal) c arg3 harg3 arg4 harg4 arg6 x0 x1) (ix2 ρ j) = contents x0 x1 7 ρ j := by
  unfold kernelRun0_A.sl.H3_8 kernelRun0_A.sl.v64
  exact stage x0 x1 _ (contents x0 x1 6) (st7 c arg3 harg3 arg4 harg4 arg6 x0 x1) 3 (by omega) 0 _ _ _ _ _
    (fun j => HandPay.pay13_apply _ _ _ j)
    (fun j => rowload_apply _ _ 3 _ ⟨3, by omega⟩ rfl j)
    (wr_apply c arg4 harg4 x1)
    (fun l' k => xload_apply arg3 harg3 x0 3 0 _ ⟨3, by omega⟩ 0 rfl rfl l' k)
    ρ j

/-- After the second store of row 3 the buffer holds the running maxima of 8 row stores. -/
theorem st9 (ρ : Fin 8) (j : Fin 512) :
    View.canon (kernelRun0_A.sl.H3_9 (F := Ideal) c arg3 harg3 arg4 harg4 arg6 x0 x1) (ix2 ρ j) = contents x0 x1 8 ρ j := by
  unfold kernelRun0_A.sl.H3_9 kernelRun0_A.sl.v73
  exact stage x0 x1 _ (contents x0 x1 7) (st8 c arg3 harg3 arg4 harg4 arg6 x0 x1) 3 (by omega) 1 _ _ _ _ _
    (fun j => HandPay.pay14_apply _ _ _ j)
    (fun j => rowload_apply _ _ 3 _ ⟨3, by omega⟩ rfl j)
    (wr_apply c arg4 harg4 x1)
    (fun l' k => xload_apply arg3 harg3 x0 3 64 _ ⟨3, by omega⟩ 1 rfl rfl l' k)
    ρ j

/-- After the first store of row 4 the buffer holds the running maxima of 9 row stores. -/
theorem st10 (ρ : Fin 8) (j : Fin 512) :
    View.canon (kernelRun0_A.sl.H3_10 (F := Ideal) c arg3 harg3 arg4 harg4 arg6 x0 x1) (ix2 ρ j) = contents x0 x1 9 ρ j := by
  unfold kernelRun0_A.sl.H3_10 kernelRun0_A.sl.r_3 kernelRun0_A.sl.v82
  exact stage x0 x1 _ (contents x0 x1 8) (st9 c arg3 harg3 arg4 harg4 arg6 x0 x1) 4 (by omega) 0 _ _ _ _ _
    (fun j => HandPay.pay15_apply _ _ _ j)
    (fun j => rowload_apply _ _ 4 _ ⟨4, by omega⟩ rfl j)
    (wr_apply c arg4 harg4 x1)
    (fun l' k => xload_apply arg3 harg3 x0 4 0 _ ⟨4, by omega⟩ 0 rfl rfl l' k)
    ρ j

/-- After the second store of row 4 the buffer holds the running maxima of 10 row stores. -/
theorem st11 (ρ : Fin 8) (j : Fin 512) :
    View.canon (kernelRun0_A.sl.H3_11 (F := Ideal) c arg3 harg3 arg4 harg4 arg6 x0 x1) (ix2 ρ j) = contents x0 x1 10 ρ j := by
  unfold kernelRun0_A.sl.H3_11 kernelRun0_A.sl.v91
  exact stage x0 x1 _ (contents x0 x1 9) (st10 c arg3 harg3 arg4 harg4 arg6 x0 x1) 4 (by omega) 1 _ _ _ _ _
    (fun j => HandPay.pay16_apply _ _ _ j)
    (fun j => rowload_apply _ _ 4 _ ⟨4, by omega⟩ rfl j)
    (wr_apply c arg4 harg4 x1)
    (fun l' k => xload_apply arg3 harg3 x0 4 64 _ ⟨4, by omega⟩ 1 rfl rfl l' k)
    ρ j

/-- After the first store of row 5 the buffer holds the running maxima of 11 row stores. -/
theorem st12 (ρ : Fin 8) (j : Fin 512) :
    View.canon (kernelRun0_A.sl.H3_12 (F := Ideal) c arg3 harg3 arg4 harg4 arg6 x0 x1) (ix2 ρ j) = contents x0 x1 11 ρ j := by
  unfold kernelRun0_A.sl.H3_12 kernelRun0_A.sl.v100
  exact stage x0 x1 _ (contents x0 x1 10) (st11 c arg3 harg3 arg4 harg4 arg6 x0 x1) 5 (by omega) 0 _ _ _ _ _
    (fun j => HandPay.pay17_apply _ _ _ j)
    (fun j => rowload_apply _ _ 5 _ ⟨5, by omega⟩ rfl j)
    (wr_apply c arg4 harg4 x1)
    (fun l' k => xload_apply arg3 harg3 x0 5 0 _ ⟨5, by omega⟩ 0 rfl rfl l' k)
    ρ j

/-- After the second store of row 5 the buffer holds the running maxima of 12 row stores. -/
theorem st13 (ρ : Fin 8) (j : Fin 512) :
    View.canon (kernelRun0_A.sl.H3_13 (F := Ideal) c arg3 harg3 arg4 harg4 arg6 x0 x1) (ix2 ρ j) = contents x0 x1 12 ρ j := by
  unfold kernelRun0_A.sl.H3_13 kernelRun0_A.sl.r_4 kernelRun0_A.sl.v109
  exact stage x0 x1 _ (contents x0 x1 11) (st12 c arg3 harg3 arg4 harg4 arg6 x0 x1) 5 (by omega) 1 _ _ _ _ _
    (fun j => HandPay.pay18_apply _ _ _ j)
    (fun j => rowload_apply _ _ 5 _ ⟨5, by omega⟩ rfl j)
    (wr_apply c arg4 harg4 x1)
    (fun l' k => xload_apply arg3 harg3 x0 5 64 _ ⟨5, by omega⟩ 1 rfl rfl l' k)
    ρ j

/-- After the first store of row 6 the buffer holds the running maxima of 13 row stores. -/
theorem st14 (ρ : Fin 8) (j : Fin 512) :
    View.canon (kernelRun0_A.sl.H3_14 (F := Ideal) c arg3 harg3 arg4 harg4 arg6 x0 x1) (ix2 ρ j) = contents x0 x1 13 ρ j := by
  unfold kernelRun0_A.sl.H3_14 kernelRun0_A.sl.v118
  exact stage x0 x1 _ (contents x0 x1 12) (st13 c arg3 harg3 arg4 harg4 arg6 x0 x1) 6 (by omega) 0 _ _ _ _ _
    (fun j => HandPay.pay19_apply _ _ _ j)
    (fun j => rowload_apply _ _ 6 _ ⟨6, by omega⟩ rfl j)
    (wr_apply c arg4 harg4 x1)
    (fun l' k => xload_apply arg3 harg3 x0 6 0 _ ⟨6, by omega⟩ 0 rfl rfl l' k)
    ρ j

/-- After the second store of row 6 the buffer holds the running maxima of 14 row stores. -/
theorem st15 (ρ : Fin 8) (j : Fin 512) :
    View.canon (kernelRun0_A.sl.H3_15 (F := Ideal) c arg3 harg3 arg4 harg4 arg6 x0 x1) (ix2 ρ j) = contents x0 x1 14 ρ j := by
  unfold kernelRun0_A.sl.H3_15 kernelRun0_A.sl.v127
  exact stage x0 x1 _ (contents x0 x1 13) (st14 c arg3 harg3 arg4 harg4 arg6 x0 x1) 6 (by omega) 1 _ _ _ _ _
    (fun j => HandPay.pay20_apply _ _ _ j)
    (fun j => rowload_apply _ _ 6 _ ⟨6, by omega⟩ rfl j)
    (wr_apply c arg4 harg4 x1)
    (fun l' k => xload_apply arg3 harg3 x0 6 64 _ ⟨6, by omega⟩ 1 rfl rfl l' k)
    ρ j

/-- After the first store of row 7 the buffer holds the running maxima of 15 row stores. -/
theorem st16 (ρ : Fin 8) (j : Fin 512) :
    View.canon (kernelRun0_A.sl.H3_16 (F := Ideal) c arg3 harg3 arg4 harg4 arg6 x0 x1) (ix2 ρ j) = contents x0 x1 15 ρ j := by
  unfold kernelRun0_A.sl.H3_16 kernelRun0_A.sl.v136
  exact stage x0 x1 _ (contents x0 x1 14) (st15 c arg3 harg3 arg4 harg4 arg6 x0 x1) 7 (by omega) 0 _ _ _ _ _
    (fun j => HandPay.pay21_apply _ _ _ j)
    (fun j => rowload_apply _ _ 7 _ ⟨7, by omega⟩ rfl j)
    (wr_apply c arg4 harg4 x1)
    (fun l' k => xload_apply arg3 harg3 x0 7 0 _ ⟨7, by omega⟩ 0 rfl rfl l' k)
    ρ j

/-- After the second store of row 7 the buffer holds the running maxima of 16 row stores. -/
theorem st17 (ρ : Fin 8) (j : Fin 512) :
    View.canon (kernelRun0_A.sl.H3_17 (F := Ideal) c arg3 harg3 arg4 harg4 arg6 x0 x1) (ix2 ρ j) = contents x0 x1 16 ρ j := by
  unfold kernelRun0_A.sl.H3_17 kernelRun0_A.sl.v145
  exact stage x0 x1 _ (contents x0 x1 15) (st16 c arg3 harg3 arg4 harg4 arg6 x0 x1) 7 (by omega) 1 _ _ _ _ _
    (fun j => HandPay.pay1_apply _ _ _ j)
    (fun j => rowload_apply _ _ 7 _ ⟨7, by omega⟩ rfl j)
    (wr_apply c arg4 harg4 x1)
    (fun l' k => xload_apply arg3 harg3 x0 7 64 _ ⟨7, by omega⟩ 1 rfl rfl l' k)
    ρ j

end Stages

/-- What one run of the body leaves in the output buffer at row `ρ`, column `j`. -/
theorem out_apply (c : Dev nD) (i : grid0.Coords) (arg3 : Memref sig .tc .vmem S8x128x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S8x512 .f32) (harg6 : arg6.IsWhole) (hc0 : cond0_0 i) (hc1 : cond0_1 i)
    (x0 : Vec Ideal S8x128x512 .f32) (x1 : Vec Ideal S512x512 .f32) (x2 : Vec Ideal S1x512 .f32) (ρ : Fin 8) (j : Fin 512) :
    out0_A_3 (F := Ideal) c i arg3 harg3 arg4 harg4 arg5 harg5 arg6 harg6 hc0 hc1 x0 x1 x2 (ix2 ρ j) = rowVal x1 x2 x0 ρ j := by
  unfold out0_A_3
  rw [View.read_writes_eq_canon _ _ _ (cover0_A_3 c i arg3 harg3 arg4 harg4 arg5 harg5 arg6 harg6 hc0 hc1 x0 x1 x2)]
  unfold kernelRun0_A
  dsimp only
  rw [View.canon_cons_unit_zero (S := S8x512) hz, HandPay.pay2_apply]
  unfold kernelRun0_A.sl.v152
  rw [wholeload_apply, st17, contents_eq, if_pos (by have := ρ.isLt; omega), bload_apply]
  rfl

end Cert.ReferenceIdeal.HandValue

end
-- ==== Proof.RIValue.lean ====
/-
  The reference's result array at the ideal values.

  At point t of its 128-point grid the reference's region reads rows [8 t, 8 t + 8) of x whole (all 128 tokens), the
  padded weight and the padded bias, and writes back rows [8 t, 8 t + 8) of the result.  One run of the body leaves at
  row ρ of the 8-row buffer the row's value over those blocks (Proof/RIVOut.lean); −∞ joined with a maximum is that
  maximum, the chunk s of row ρ of the block is tokens 64 s … 64 s + 63 of sequence 8 t + ρ, and the zero-width pads
  are identities, so the row is the pooled score of sequence 8 t + ρ.  The 128 blocks cover the 1024 rows.
-/
import proofs.«164441_g2000706673400859_pallasbulk_1295_19_alg».proof.Proof.Gen.ReferenceIdeal.Frame
import proofs.«164441_g2000706673400859_pallasbulk_1295_19_alg».proof.Proof.PoolSpec
import proofs.«164441_g2000706673400859_pallasbulk_1295_19_alg».proof.Proof.RIVPay
import proofs.«164441_g2000706673400859_pallasbulk_1295_19_alg».proof.Proof.RIVHost
import proofs.«164441_g2000706673400859_pallasbulk_1295_19_alg».proof.Proof.RIVOut
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.ReferenceIdeal.HandValue

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable (m : (ℓ : Loc nD τ sig) → Buf (Elt Ideal) ℓ)

/-! ## The blocks at a point -/

/-- The program's first argument as launched: x. -/
abbrev argX (c : Dev nD) : FVec Ideal Cert.Pool.Sx .f32 := m ((c.tc : Thread nD τ).loc main_arg0)
/-- The program's second argument as launched: the weight. -/
abbrev argW (c : Dev nD) : FVec Ideal Cert.Pool.Sw .f32 := m ((c.tc : Thread nD τ).loc main_arg1)
/-- The program's third argument as launched: the bias. -/
abbrev argB (c : Dev nD) : FVec Ideal Cert.Pool.Sb .f32 := m ((c.tc : Thread nD τ).loc main_arg2)

/-- The block of 8 sequences of x at point `t`. -/
abbrev xblk (c : Dev nD) (t : Fin cfg0.N) : Vec Ideal S8x128x512 .f32 := iblk m c 0 t
/-- The weight's block at point `t`. -/
abbrev wblk (c : Dev nD) (t : Fin cfg0.N) : Vec Ideal S512x512 .f32 := iblk m c 1 t
/-- The bias's block at point `t`. -/
abbrev bblk (c : Dev nD) (t : Fin cfg0.N) : Vec Ideal S1x512 .f32 := iblk m c 2 t

/-- The index maps over the grid (128 x 1 x 1 points): at point `t` the window of x and the result's window are at
    block `t` of the sequence axis, the weight's and the bias's at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of x at point `t`: its row `ρ` is sequence `8 t + ρ` of x. -/
theorem xblk_apply (c : Dev nD) (t : Fin cfg0.N) (ρ : Fin 8) (l : Fin 128) (k : Fin 512) (b : Fin 1024) (hb : b.val = 8 * t.val + ρ.val) :
    xblk m c t (ix3 ρ l k) = argX m c (ix3 b l k) := by
  obtain ⟨e0, e1, e2, -⟩ := idx_facts t
  unfold xblk iblk
  rw [View.read_apply]
  show V m c main_arg0 _ = _
  refine (congrFun (V_main_arg0 m c) _).trans ?_
  show m ((c.tc : Thread nD τ).loc main_arg0) _ = m ((c.tc : Thread nD τ).loc main_arg0) _
  congr 1
  funext a
  apply Fin.ext
  match a with
  | ⟨0, _⟩ => show win0_0.index t (0 : Fin 3) * 8 + 1 * ρ.val = b.val; rw [e0, hb]; omega
  | ⟨1, _⟩ => show win0_0.index t (1 : Fin 3) * 128 + 1 * l.val = l.val; rw [e1]; omega
  | ⟨2, _⟩ => show win0_0.index t (2 : Fin 3) * 512 + 1 * k.val = k.val; rw [e2]; omega

/-- The weight's block at any point is the whole padded weight. -/
theorem wblk_apply (c : Dev nD) (t : Fin cfg0.N) (k j : Fin 512) :
    wblk m c t (ix2 k j) = (V m c main_v0 : S512x512.Idx → EReal) (ix2 k j) := by
  obtain ⟨-, -, -, e0, e1, -⟩ := idx_facts t
  unfold wblk iblk
  rw [View.read_apply]
  show V m c main_v0 _ = V m c main_v0 _
  congr 1
  funext a
  apply Fin.ext
  match a with
  | ⟨0, _⟩ => show win0_1.index t (0 : Fin 2) * 512 + 1 * k.val = k.val; rw [e0]; omega
  | ⟨1, _⟩ => show win0_1.index t (1 : Fin 2) * 512 + 1 * j.val = j.val; rw [e1]; omega

/-- The bias's block at any point is the whole padded bias. -/
theorem bblk_apply (c : Dev nD) (t : Fin cfg0.N) (j : Fin 512) :
    bblk m c t (ix2 0 j) = (V m c main_v1 : S1x512.Idx → EReal) (ix2 0 j) := by
  obtain ⟨-, -, -, -, -, e0, e1, -⟩ := idx_facts t
  unfold bblk iblk
  rw [View.read_apply]
  show V m c main_v1 _ = V m c main_v1 _
  congr 1
  funext a
  apply Fin.ext
  match a with
  | ⟨0, _⟩ => show win0_2.index t (0 : Fin 2) * 1 + 1 * 0 = 0; rw [e0]
  | ⟨1, _⟩ => show win0_2.index t (1 : Fin 2) * 512 + 1 * j.val = j.val; rw [e1]; omega

/-- A row's value over the blocks at point `t` is the pooled score of sequence `8 t + ρ` of the arguments. -/
theorem rowVal_blocks (c : Dev nD) (t : Fin cfg0.N) (ρ : Fin 8) (j : Fin 512) (b : Fin 1024) (j' : Fin 512)
    (hb : b.val = 8 * t.val + ρ.val) (hj : j'.val = j.val) :
    rowVal (wblk m c t) (bblk m c t) (xblk m c t) ρ j = Cert.Pool.pooledAt (argX m c) (argW m c) (argB m c) b j' := by
  obtain rfl : j = j' := (Fin.ext hj).symm
  have h : ∀ s : Fin 2, (fun l' : Fin 64 => ∑ k : Fin 512, xblk m c t (ix3 ρ (⟨64 * s.val + l'.val, by omega⟩ : Fin 128) k) * wblk m c t (ix2 k j))
      = fun l' : Fin 64 => Cert.Pool.score (argX m c) (argW m c) b ⟨64 * s.val + l'.val, by omega⟩ j := fun s =>
    funext fun l' => Finset.sum_congr rfl fun k _ => by
      rw [xblk_apply m c t ρ _ k b hb, wblk_apply m c t k j, HandHost.V_main_v0_apply m c k j]
  unfold rowVal rowChunkMax Cert.Pool.pooledAt Cert.Pool.halfMax
  rw [h 0, h 1, bblk_apply m c t j, HandHost.V_main_v1_apply m c j, Cert.Pool.max_negInf_left]

/-- What the output buffer holds after the body at point `t`, at an index: the pooled score where that index sits in
    the result array. -/
theorem outsAt_apply (c : Dev nD) (t : Fin cfg0.N) (y : S8x512.Idx) (i : S1024x512.Idx)
    (h0 : (i 0).val = 8 * t.val + (y 0).val) (h1 : (i 1).val = (y 1).val) :
    outsAt0 (F := Ideal) m c t y = Cert.Pool.pooled (argX m c) (argW m c) (argB m c) i := by
  show _ = Cert.Pool.pooledAt (argX m c) (argW m c) (argB m c) (i 0) (i 1)
  rw [eq_ix2 y]
  unfold outsAt0
  refine (out_apply c (grid0.coords t) (ms0_0 t) (hs0_0 t) (ms0_1 t) (hs0_1 t) (ms0_2 t) (hs0_2 t) (ms0_3 t) (hs0_3 t) (hcond0_0 t) (hcond0_1 t) (iblk m c 0 t) (iblk m c 1 t) (iblk m c 2 t) (y 0) (y 1)).trans ?_
  exact rowVal_blocks m c t (y 0) (y 1) (i 0) (i 1) h0 h1

/-! ## From the blocks to the array -/

/-- What point `t` writes back is block `t` of the pooled score of the arguments. -/
theorem flushed_eq (c : Dev nD) (t : Fin cfg0.N) :
    (dats (F := Ideal) m 0 c).flushed 3 t
      = ((cfg0.win 3).blk t).view.read (Elt Ideal) (Cert.Pool.pooled (argX m c) (argW m c) (argB m c)) := by
  show (cfg0.win 3).cut (grid0.coords t) ((dats m 0 c).after 3 t) = _
  rw [after0_3]
  obtain ⟨-, -, -, -, -, -, -, e0, e1⟩ := idx_facts t
  funext y
  rw [View.read_apply]
  refine outsAt_apply m c t y (((cfg0.win 3).blk t).view.emb y) ?_ ?_
  · show win0_3.index t (0 : Fin 2) * 8 + 1 * (y 0).val = 8 * t.val + (y 0).val; rw [e0]; omega
  · show win0_3.index t (1 : Fin 2) * 512 + 1 * (y 1).val = (y 1).val; rw [e1]; omega

/-- An index of the result array is in point `t`'s block iff each coordinate is in the block's range on its axis. -/
theorem mem_blk (t : Fin cfg0.N) (i : S1024x512.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v2).slice (win0_3.rect t)).set ↔ _
  rw [View.set_slice_whole, Rect.mem_set_unit]
  exact Iff.rfl

/-- Row `b` of the result array is in the block of point `b / 8`: the 128 blocks cover the array. -/
theorem covered (i : S1024x512.Idx) :
    ∃ t : Fin cfg0.N, (cfg0.win 3).flush t = true ∧ i ∈ ((cfg0.win 3).blk t).view.set := by
  have hi0 : (i 0).val < 1024 := (i 0).isLt
  have hi1 : (i 1).val < 512 := (i 1).isLt
  have hN : cfg0.N = 128 := N_0
  have ht : (i 0).val / 8 < cfg0.N := by rw [hN]; omega
  obtain ⟨-, -, -, -, -, -, -, e0, e1⟩ := idx_facts ⟨(i 0).val / 8, ht⟩
  refine ⟨⟨(i 0).val / 8, ht⟩, flush0_3 _, ?_⟩
  rw [mem_blk]
  intro a
  match a with
  | ⟨0, _⟩ =>
    show win0_3.index ⟨(i 0).val / 8, ht⟩ (0 : Fin 2) * 8 ≤ (i 0).val ∧ (i 0).val < win0_3.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_3.index ⟨(i 0).val / 8, ht⟩ (1 : Fin 2) * 512 ≤ (i 1).val ∧ (i 1).val < win0_3.index ⟨(i 0).val / 8, ht⟩ (1 : Fin 2) * 512 + 512
    rw [e1]; omega

/-- After the 128 write-backs the result array is the pooled score of the three arguments. -/
theorem final (c : Dev nD) :
    (dats (F := Ideal) m 0 c).arrAt 3 cfg0.N
      = Cert.Pool.pooled (m ((c.tc : Thread nD τ).loc main_arg0)) (m ((c.tc : Thread nD τ).loc main_arg1)) (m ((c.tc : Thread nD τ).loc main_arg2)) :=
  (dats m 0 c).arrAt_eq_of_cover 3 (Cert.Pool.pooled (argX m c) (argW m c) (argB m c)) (fun t _ => flushed_eq m c t) covered

end Cert.ReferenceIdeal.HandValue

end
-- ==== Proof.lean ====
/-
  The certificate of a fused linear layer, ReLU and maximum over the length axis:

      out[b, j] = max_l relu( x[b, l, :] · w[:, j] + bias[0, j] )      (x : [1024,128,512], w : [512,512], bias : [1,512]).

  Both programs are one pipelined kernel region after a few host lines.  The kernel narrows x and w to bf16 (the
  identity over the extended reals), multiplies 16 sequences' rows of one half of the length axis at a time, takes
  each half's maximum, joins the two halves, adds the bias and clamps at zero once — relu is monotone and the bias
  does not depend on l, so the clamp and the bias commute with the maximum.  The reference keeps a running maximum
  per sequence from −∞ over the same two halves and adds the bias and clamps at the end.  Over the extended reals
  both are `Cert.Pool.pooled` of the three arguments: joining with −∞ changes nothing, and sums and maxima do not
  depend on how the rows are grouped.

  The frames: the kernel reads the reshaped x through two windows at once; each holds half of the array's share for
  the region (Proof/KIFrame.lean, and its word-level twin Proof/KBFrame.lean); the reference's frame is the generated one.
-/
import proofs.«164441_g2000706673400859_pallasbulk_1295_19_alg».proof.Defs
import proofs.«164441_g2000706673400859_pallasbulk_1295_19_alg».proof.Proof.Gen.Kernel
import proofs.«164441_g2000706673400859_pallasbulk_1295_19_alg».proof.Proof.Gen.KernelIdeal
import proofs.«164441_g2000706673400859_pallasbulk_1295_19_alg».proof.Proof.Gen.ReferenceIdeal
import proofs.«164441_g2000706673400859_pallasbulk_1295_19_alg».proof.Proof.Gen.ReferenceIdeal.Frame
import proofs.«164441_g2000706673400859_pallasbulk_1295_19_alg».proof.Proof.Gen.Pre_finite_inputs
import proofs.«164441_g2000706673400859_pallasbulk_1295_19_alg».proof.Proof.KBFrame
import proofs.«164441_g2000706673400859_pallasbulk_1295_19_alg».proof.Proof.KIValue
import proofs.«164441_g2000706673400859_pallasbulk_1295_19_alg».proof.Proof.RIValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Gen.frame m ρ

/-- From arguments that agree both programs end with the pooled score in their result arrays, the kernel's by its
    region's run and the value of its sixteen written-back blocks, the reference's by its generated run and the
    value of its 128 blocks; the arguments end as launched. -/
theorem algebraic : Cert.algebraic_KernelIdeal_ReferenceIdeal := by
  intro m ρ m' ρ' _ hagree
  refine ⟨fun c => Cert.Pool.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨((h c).1 4).trans (Cert.KernelIdeal.HandValue.final m c), ?_, ?_, ?_⟩)
      (Cert.KernelIdeal.Hand.run_main (F := Ideal) m ρ)
    · exact ((h c).2 Cert.KernelIdeal.main_arg0 (Pipeline.mem_restRefs_of Cert.KernelIdeal.main_arg0 (by decide) (by decide))).trans (Cert.KernelIdeal.Hand.V_main_arg0 m c)
    · exact ((h c).2 Cert.KernelIdeal.main_arg1 (Pipeline.mem_restRefs_of Cert.KernelIdeal.main_arg1 (by decide) (by decide))).trans (Cert.KernelIdeal.Hand.V_main_arg1 m c)
    · exact ((h c).2 Cert.KernelIdeal.main_arg2 (Pipeline.mem_restRefs_of Cert.KernelIdeal.main_arg2 (by decide) (by decide))).trans (Cert.KernelIdeal.Hand.V_main_arg2 m c)
  · refine (θ_run Cert.ReferenceIdeal.defs _ _).mono (fun r h c => ⟨?_, ?_, ?_, ?_⟩)
      (Cert.ReferenceIdeal.Gen.run_main (F := Ideal) m' ρ')
    · refine ((h c).1 3).trans ((Cert.ReferenceIdeal.HandValue.final m' c).trans ?_)
      rw [(hagree c).1, (hagree c).2.1, (hagree c).2.2]
    · exact ((h c).1 0).trans (((Cert.ReferenceIdeal.Gen.dats m' 0 c).arrAt_in 0 rfl _).trans ((Cert.ReferenceIdeal.Gen.A_eq m' c 0).trans (Cert.ReferenceIdeal.Gen.V_main_arg0 m' c)))
    · exact ((h c).2 Cert.ReferenceIdeal.main_arg1 (Pipeline.mem_restRefs_of Cert.ReferenceIdeal.main_arg1 (by decide) (by decide))).trans (Cert.ReferenceIdeal.Gen.V_main_arg1 m' c)
    · exact ((h c).2 Cert.ReferenceIdeal.main_arg2 (Pipeline.mem_restRefs_of Cert.ReferenceIdeal.main_arg2 (by decide) (by decide))).trans (Cert.ReferenceIdeal.Gen.V_main_arg2 m' c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
